-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x3 : Shape := ⟨3, ![2, 100000, 3]⟩
abbrev S2x100000 : Shape := ⟨2, ![2, 100000]⟩
abbrev S64x3 : Shape := ⟨2, ![64, 3]⟩
abbrev S64 : Shape := ⟨1, ![64]⟩
abbrev S_ : Shape := ⟨0, ![]⟩

class Facts : Prop where
  bcast_S_S2x100000x3 : S_.BroadcastsInDim S2x100000x3 (![] : Fin 0 → Fin S2x100000x3.rank)
  reducesTo_S2x100000x3_S_d0_1_2 : S2x100000x3.ReducesTo [0, 1, 2] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_cst_14 : FVec F S_ .f32 := constant S_ .f32 0x00000000#32
  let main_v39 : FVec F S64 .f32 := broadcastInDim S64 ![] bcast_S_S64 main_cst_14
  let main_v40 : IVec S64 1 := cmpf .oge main_arg11 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v38 main_v41
  main_v42

def fn_part1 {F : FTy → Type} [FloatOps F] (main_arg8 : FVec F S64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_v33

def fn {F : FTy → Type} [FloatOps F] (main_arg0 : FVec F S2x100000x3 .f32) (main_arg1 : IVec S2x100000 1) (main_arg2 : IVec S2x100000 32) (main_arg3 : FVec F S2x100000x3 .f32) (main_arg4 : IVec S2x100000 1) (main_arg5 : IVec S2x100000 32) (main_arg6 : FVec F S64x3 .f32) (main_arg7 : FVec F S64 .f32) (main_arg8 : FVec F S64 .f32) (main_arg9 : FVec F S64 .f32) (main_arg10 : FVec F S64 .f32) (main_arg11 : FVec F S64 .f32) : IVec S_ 1 :=
  let main_v0 : FVec F S2x100000x3 .f32 := Host.absf main_arg0
  let main_cst : FVec F S_ .f32 := constant S_ .f32 0x7F800000#32
  let main_v1 : FVec F S2x100000x3 .f32 := broadcastInDim S2x100000x3 ![] bcast_S_S2x100000x3 main_cst
  let main_v2 : IVec S2x100000x3 1 := cmpf .olt main_v0 main_v1
  let main_c : IVec S_ 1 := constantI S_ 1 1#1
  let main_v3 : IVec S_ 1 := (fun x v => Host.reduce IntOp.andi x v reducesTo_S2x100000x3_S_d0_1_2 h_S_) main_v2 main_c
  let main_v4 : FVec F S2x100000x3 .f32 := Host.absf main_arg3
  let main_cst_0 : FVec F S_ .f32 := constant S_ .f32 0x7F800000#32
  let main_v5 : FVec F S2x100000x3 .f32 := broadcastInDim S2x100000x3 ![] bcast_S_S2x100000x3 main_cst_0
  let main_v6 : IVec S2x100000x3 1 := cmpf .olt main_v4 main_v5
  let main_c_1 : IVec S_ 1 := constantI S_ 1 1#1
  let main_v7 : IVec S_ 1 := (fun x v => Host.reduce IntOp.andi x v reducesTo_S2x100000x3_S_d0_1_2 h_S_) main_v6 main_c_1
  let main_v8 : IVec S_ 1 := andi main_v3 main_v7
  let main_v9 : FVec F S64x3 .f32 := Host.absf main_arg6
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_v13 main_v16
-- ==== Kernel.lean ====
abbrev S2x100000x3 : Shape := ⟨3, ![2, 100000, 3]⟩
abbrev S2x100000 : Shape := ⟨2, ![2, 100000]⟩
abbrev S64x3 : Shape := ⟨2, ![64, 3]⟩
abbrev S64 : Shape := ⟨1, ![64]⟩
abbrev S2x1x100000x3 : Shape := ⟨4, ![2, 1, 100000, 3]⟩
abbrev S2x2x100000x3 : Shape := ⟨4, ![2, 2, 100000, 3]⟩
abbrev S4x100000x3 : Shape := ⟨3, ![4, 100000, 3]⟩
abbrev S2x1x100000 : Shape := ⟨3, ![2, 1, 100000]⟩
abbrev S2x2x100000 : Shape := ⟨3, ![2, 2, 100000]⟩
abbrev S4x100000 : Shape := ⟨2, ![4, 100000]⟩
abbrev S4x3x100000 : Shape := ⟨3, ![4, 3, 100000]⟩
abbrev S_ : Shape := ⟨0, ![]⟩
abbrev S4x3x102400 : Shape := ⟨3, ![4, 3, 102400]⟩
abbrev S4x102400 : Shape := ⟨2, ![4, 102400]⟩
abbrev S64x1 : Shape := ⟨2, ![64, 1]⟩
abbrev S3x64 : Shape := ⟨2, ![3, 64]⟩
abbrev S4x102400x64 : Shape := ⟨3, ![4, 102400, 64]⟩
abbrev S4x3x4096 : Shape := ⟨3, ![4, 3, 4096]⟩
abbrev S4x4096 : Shape := ⟨2, ![4, 4096]⟩
abbrev S4x4096x64 : Shape := ⟨3, ![4, 4096, 64]⟩
abbrev S1x3x4096 : Shape := ⟨3, ![1, 3, 4096]⟩
abbrev S3x4096 : Shape := ⟨2, ![3, 4096]⟩
abbrev S4096x3 : Shape := ⟨2, ![4096, 3]⟩
abbrev S4096x64 : Shape := ⟨2, ![4096, 64]⟩
abbrev S1x64 : Shape := ⟨2, ![1, 64]⟩
abbrev S1x4096 : Shape := ⟨2, ![1, 4096]⟩
abbrev S4096 : Shape := ⟨1, ![4096]⟩
abbrev S4096x1 : Shape := ⟨2, ![4096, 1]⟩
abbrev S1x4096x64 : Shape := ⟨3, ![1, 4096, 64]⟩
abbrev S4x100000x64 : Shape := ⟨3, ![4, 100000, 64]⟩
abbrev S4x409600x64 : Shape := ⟨3, ![4, 409600, 64]⟩
abbrev S4 : Shape := ⟨1, ![4]⟩
abbrev S4x1 : Shape := ⟨2, ![4, 1]⟩
abbrev S4x100000x1 : Shape := ⟨3, ![4, 100000, 1]⟩
abbrev S4x100000x2 : Shape := ⟨3, ![4, 100000, 2]⟩
abbrev S4x64x409600 : Shape := ⟨3, ![4, 64, 409600]⟩
abbrev S4x64x640x640 : Shape := ⟨4, ![4, 64, 640, 640]⟩

abbrev nBuf : Space → Nat
  | .hbm => 72
  | .vmem => 8
  | .smem => 0
  | _ => 0

abbrev bufTy : (tb : Table) → Fin (tcTables nBuf tb) → BufTy
  | .hbm, ⟨0, _⟩ => ⟨S2x100000x3, .f32⟩
  | .hbm, ⟨1, _⟩ => ⟨S2x100000, .i1⟩
  | .hbm, ⟨2, _⟩ => ⟨S2x100000, .i32⟩
  | .hbm, ⟨3, _⟩ => ⟨S2x100000x3, .f32⟩
  | .hbm, ⟨4, _⟩ => ⟨S2x100000, .i1⟩
  | .hbm, ⟨5, _⟩ => ⟨S2x100000, .i32⟩
  | .hbm, ⟨6, _⟩ => ⟨S64x3, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S2x1x100000x3, .f32⟩
  | .hbm, ⟨13, _⟩ => ⟨S2x1x100000x3, .f32⟩
  | .hbm, ⟨14, _⟩ => ⟨S2x2x100000x3, .f32⟩
  | .hbm, ⟨15, _⟩ => ⟨S4x100000x3, .f32⟩
  | .hbm, ⟨16, _⟩ => ⟨S2x1x100000, .i1⟩
  | .hbm, ⟨17, _⟩ => ⟨S2x1x100000, .i1⟩
  | .hbm, ⟨18, _⟩ => ⟨S2x2x100000, .i1⟩
  | .hbm, ⟨19, _⟩ => ⟨S4x100000, .i1⟩
  | .hbm, ⟨20, _⟩ => ⟨S2x1x100000, .i32⟩
  | .hbm, ⟨21, _⟩ => ⟨S2x1x100000, .i32⟩
  | .hbm, ⟨22, _⟩ => ⟨S2x2x100000, .i32⟩
  | .hbm, ⟨23, _⟩ => ⟨S4x100000, .i32⟩
  | .hbm, ⟨24, _⟩ => ⟨S4x3x100000, .f32⟩
  | .hbm, ⟨25, _⟩ => ⟨S_, .i32⟩
  | .hbm, ⟨26, _⟩ => ⟨S_, .f32⟩
  | .hbm, ⟨27, _⟩ => ⟨S4x3x102400, .f32⟩
  | .hbm, ⟨28, _⟩ => ⟨S4x100000, .f32⟩
  | .hbm, ⟨29, _⟩ => ⟨S_, .i32⟩
  | .hbm, ⟨30, _⟩ => ⟨S_, .f32⟩
  | .hbm, ⟨31, _⟩ => ⟨S4x102400, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64x1, .f32⟩
  | .hbm, ⟨40, _⟩ => ⟨S64x3, .f32⟩
  | .hbm, ⟨41, _⟩ => ⟨S64x3, .f32⟩
  | .hbm, ⟨42, _⟩ => ⟨S3x64, .f32⟩
  | .hbm, ⟨43, _⟩ => ⟨S64, .f32⟩
  | .hbm, ⟨44, _⟩ => ⟨S64, .f32⟩
  | .hbm, ⟨45, _⟩ => ⟨S4x102400x64, .f32⟩
  | .hbm, ⟨46, _⟩ => ⟨S4x100000x64, .f32⟩
  | .hbm, ⟨47, _⟩ => ⟨S_, .f32⟩
  | .hbm, ⟨48, _⟩ => ⟨S4x409600x64, .f32⟩
  | .hbm, ⟨49, _⟩ => ⟨S4, .i32⟩
  | .hbm, ⟨50, _⟩ => ⟨S4x1, .i32⟩
  | .hbm, ⟨51, _⟩ => ⟨S_, .i32⟩
  | .hbm, ⟨52, _⟩ => ⟨S4x1, .i32⟩
  | .hbm, ⟨53, _⟩ => ⟨S4x1, .i1⟩
  | .hbm, ⟨54, _⟩ => ⟨S_, .i32⟩
  | .hbm, ⟨55, _⟩ => ⟨S4x1, .i32⟩
  | .hbm, ⟨56, _⟩ => ⟨S4x1, .i32⟩
  | .hbm, ⟨57, _⟩ => ⟨S4x1, .i32⟩
  | .hbm, ⟨58, _⟩ => ⟨S_, .i32⟩
  | .hbm, ⟨59, _⟩ => ⟨S4x100000, .i32⟩
  | .hbm, ⟨60, _⟩ => ⟨S4x100000, .i1⟩
  | .hbm, ⟨61, _⟩ => ⟨S_, .i32⟩
  | .hbm, ⟨62, _⟩ => ⟨S4x100000, .i32⟩
  | .hbm, ⟨63, _⟩ => ⟨S4x100000, .i32⟩
  | .hbm, ⟨64, _⟩ => ⟨S4x100000, .i32⟩
  | .hbm, ⟨65, _⟩ => ⟨S4x100000, .i32⟩
  | .hbm, ⟨66, _⟩ => ⟨S4x100000x1, .i32⟩
  | .hbm, ⟨67, _⟩ => ⟨S4x100000x1, .i32⟩
  | .hbm, ⟨68, _⟩ => ⟨S4x100000x2, .i32⟩
  | .hbm, ⟨69, _⟩ => ⟨S4x409600x64, .f32⟩
  | .hbm, ⟨70, _⟩ => ⟨S4x64x409600, .f32⟩
  | .hbm, ⟨71, _⟩ => ⟨S4x64x640x640, .f32⟩
  | .local _ .vmem, ⟨0, _⟩ => ⟨S4x3x4096, .f32⟩
  | .local _ .vmem, ⟨1, _⟩ => ⟨S4x3x4096, .f32⟩
  | .local _ .vmem, ⟨2, _⟩ => ⟨S4x4096, .f32⟩
  | .local _ .vmem, ⟨3, _⟩ => ⟨S4x4096, .f32⟩
  | .local _ .vmem, ⟨4, _⟩ => ⟨S3x64, .f32⟩
  | .local _ .vmem, ⟨5, _⟩ => ⟨S64, .f32⟩
  | .local _ .vmem, ⟨6, _⟩ => ⟨S4x4096x64, .f32⟩
  | .local _ .vmem, ⟨7, _⟩ => ⟨S4x4096x64, .f32⟩
  | _, _ => ⟨S2x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_call1_v0 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_c_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S2x100000x3_S2x1x100000x3_0_2_3 : S2x100000x3.BroadcastsInDim S2x1x100000x3 (![0, 2, 3] : Fin 3 → Fin S2x1x100000x3.rank)
  concatenates_S2x1x100000x3_S2x1x100000x3_S2x2x100000x3_d1 : Shape.Concatenates [S2x1x100000x3, S2x1x100000x3] S2x2x100000x3 1
  shapeCasts_S2x2x100000x3_S4x100000x3 : S2x2x100000x3.ShapeCasts S4x100000x3
  bcast_S2x100000_S2x1x100000_0_2 : S2x100000.BroadcastsInDim S2x1x100000 (![0, 2] : Fin 2 → Fin S2x1x100000.rank)
  concatenates_S2x1x100000_S2x1x100000_S2x2x100000_d1 : Shape.Concatenates [S2x1x100000, S2x1x100000] S2x2x100000 1
  shapeCasts_S2x2x100000_S4x100000 : S2x2x100000.ShapeCasts S4x100000
  transposes_S4x100000x3_S4x3x100000_0_2_1 : S4x100000x3.Transposes [0, 2, 1] S4x3x100000
  pads_S4x3x100000_S4x3x102400_000_000_024000 : S4x3x100000.Pads (![0, 0, 0] : Fin 3 → Nat) ![0, 0, 2400] ![0, 0, 0] S4x3x102400
  h_S_ : 0 < S_.numel
  pads_S4x100000_S4x102400_000_024000 : S4x100000.Pads (![0, 0] : Fin 2 → Nat) ![0, 2400] ![0, 0] S4x102400
  bcast_S_S64 : S_.BroadcastsInDim S64 (![] : Fin 0 → Fin S64.rank)
  bcast_S64_S64x1_0 : S64.BroadcastsInDim S64x1 (![0] : Fin 1 → Fin S64x1.rank)
  bcast_S64x1_S64x3_0_1 : S64x1.BroadcastsInDim S64x3 (![0, 1] : Fin 2 → Fin S64x3.rank)
  transposes_S64x3_S3x64_1_0 : S64x3.Transposes [1, 0] S3x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  bitsLt_bf16_f32 : FTy.bits .bf16 < FTy.bits .f32
  inb_S64_S64_0 : ∀ a, (![0] : Fin 1 → Nat) a + S64.size a ≤ S64.size a
  h_S64 : 0 < S64.numel
  shapeCasts_S64_S64 : S64.ShapeCasts S64
  inb_S4x3x4096_S1x3x4096_0_0_0 : ∀ a, (![0, 0, 0] : Fin 3 → Nat) a + S1x3x4096.size a ≤ S4x3x4096.size a
  h_S1x3x4096 : 0 < S1x3x4096.numel
  shapeCasts_S1x3x4096_S3x4096 : S1x3x4096.ShapeCasts S3x4096
  transposes_S3x4096_p1_0_S4096x3 : S3x4096.Transposes [1, 0] S4096x3
  shapeCasts_S64_S1x64 : S64.ShapeCasts S1x64
  broadcasts_S1x64_S4096x64 : S1x64.Broadcasts S4096x64
  inb_S4x4096_S1x4096_0_0 : ∀ a, (![0, 0] : Fin 2 → Nat) a + S1x4096.size a ≤ S4x4096.size a
  h_S1x4096 : 0 < S1x4096.numel
  shapeCasts_S1x4096_S4096 : S1x4096.ShapeCasts S4096
  shapeCasts_S4096_S4096x1 : S4096.ShapeCasts S4096x1
  broadcasts_S4096x1_S4096x64 : S4096x1.Broadcasts S4096x64
  inb_S4x4096x64_S1x4096x64_0_0_0 : ∀ a, (![0, 0, 0] : Fin 3 → Nat) a + S1x4096x64.size a ≤ S4x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  inb_S4x3x4096_S1x3x4096_1_0_0 : ∀ a, (![1, 0, 0] : Fin 3 → Nat) a + S1x3x4096.size a ≤ S4x3x4096.size a
  inb_S4x4096_S1x4096_1_0 : ∀ a, (![1, 0] : Fin 2 → Nat) a + S1x4096.size a ≤ S4x4096.size a
  inb_S4x4096x64_S1x4096x64_1_0_0 : ∀ a, (![1, 0, 0] : Fin 3 → Nat) a + S1x4096x64.size a ≤ S4x4096x64.size a
  inb_S4x3x4096_S1x3x4096_2_0_0 : ∀ a, (![2, 0, 0] : Fin 3 → Nat) a + S1x3x4096.size a ≤ S4x3x4096.size a
  inb_S4x4096_S1x4096_2_0 : ∀ a, (![2, 0] : Fin 2 → Nat) a + S1x4096.size a ≤ S4x4096.size a
  inb_S4x4096x64_S1x4096x64_2_0_0 : ∀ a, (![2, 0, 0] : Fin 3 → Nat) a + S1x4096x64.size a ≤ S4x4096x64.size a
  inb_S4x3x4096_S1x3x4096_3_0_0 : ∀ a, (![3, 0, 0] : Fin 3 → Nat) a + S1x3x4096.size a ≤ S4x3x4096.size a
  inb_S4x4096_S1x4096_3_0 : ∀ a, (![3, 0] : Fin 2 → Nat) a + S1x4096.size a ≤ S4x4096.size a
  inb_S4x4096x64_S1x4096x64_3_0_0 : ∀ a, (![3, 0, 0] : Fin 3 → Nat) a + S1x4096x64.size a ≤ S4x4096x64.size a
  slices_S4x102400x64_S4x100000x64_0_0_0 : S4x102400x64.Slices ![0, 0, 0] S4x100000x64
  bcast_S_S4x409600x64 : S_.BroadcastsInDim S4x409600x64 (![] : Fin 0 → Fin S4x409600x64.rank)
  bcast_S4_S4x1_0 : S4.BroadcastsInDim S4x1 (![0] : Fin 1 → Fin S4x1.rank)
  bcast_S_S4x1 : S_.BroadcastsInDim S4x1 (![] : Fin 0 → Fin S4x1.rank)
  bcast_S_S4x100000 : S_.BroadcastsInDim S4x100000 (![] : Fin 0 → Fin S4x100000.rank)
  bcast_S4x1_S4x100000_0_1 : S4x1.BroadcastsInDim S4x100000 (![0, 1] : Fin 2 → Fin S4x100000.rank)
  bcast_S4x100000_S4x100000x1_0_1 : S4x100000.BroadcastsInDim S4x100000x1 (![0, 1] : Fin 2 → Fin S4x100000x1.rank)
  concatenates_S4x100000x1_S4x100000x1_S4x100000x2_d2 : Shape.Concatenates [S4x100000x1, S4x100000x1] S4x100000x2 2
  transposes_S4x409600x64_S4x64x409600_0_2_1 : S4x409600x64.Transposes [0, 2, 1] S4x64x409600
  shapeCasts_S4x64x409600_S4x64x640x640 : S4x64x409600.ShapeCasts S4x64x640x640
  dot_S4096x3_S3x64_S4096x64_1_0_0_1_n_n_wf : DotDims.WF S4096x3 S3x64 S4096x64 [1] [0] [0] [1] [] []
  scatter_S4x409600x64_S4x100000x2_S4x100000x64_2_01_01_2_wf : ScatterDims.WF S4x409600x64 S4x100000x2 S4x100000x64 [2] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x4096.size a ≤ S4x3x102400.size a
  hwx0_0 : ∀ i : grid0.Coords, EltTy.bits .f32 = 32 ∨ (Rect.block (s := S4x3x102400) S4x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x102400.size a
  hwx0_1 : ∀ i : grid0.Coords, EltTy.bits .f32 = 32 ∨ (Rect.block (s := S4x102400) S4x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x4096x64.size a ≤ S4x102400x64.size a
  hwx0_4 : ∀ i : grid0.Coords, EltTy.bits .f32 = 32 ∨ (Rect.block (s := S4x102400x64) S4x4096x64.size (cc0_transform_4 i) (hinb0_4 i)).WholeWords (EltTy.packing .f32)

variable [Facts₀]

def dot_S4096x3_S3x64_S4096x64_1_0_0_1_n_n : DotDims S4096x3 S3x64 S4096x64 where
  lhsContracting := [1]
  rhsContracting := [0]
  lhsNonContracting := [0]
  rhsNonContracting := [1]
  lhsBatch := []
  rhsBatch := []
  wf := dot_S4096x3_S3x64_S4096x64_1_0_0_1_n_n_wf
def scatter_S4x409600x64_S4x100000x2_S4x100000x64_2_01_01_2 : ScatterDims S4x409600x64 S4x100000x2 S4x100000x64 where
  updateWindowDims := [2]
  insertedWindowDims := [0, 1]
  scatterDimsToOperandDims := [0, 1]
  indexVectorDim := 2
  wf := scatter_S4x409600x64_S4x100000x2_S4x100000x64_2_01_01_2_wf

abbrev win0_0 : Pipeline.Window sig grid0 :=
  Pipeline.Window.ofSpec (Memref.whole main_v13) S4x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S4x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x100000x3 : Shape := ⟨3, ![2, 100000, 3]⟩
abbrev S2x100000 : Shape := ⟨2, ![2, 100000]⟩
abbrev S64x3 : Shape := ⟨2, ![64, 3]⟩
abbrev S64 : Shape := ⟨1, ![64]⟩
abbrev S2x100000x64 : Shape := ⟨3, ![2, 100000, 64]⟩
abbrev S1x1x64 : Shape := ⟨3, ![1, 1, 64]⟩
abbrev S_ : Shape := ⟨0, ![]⟩
abbrev S2x100000x1 : Shape := ⟨3, ![2, 100000, 1]⟩
abbrev S2x409600x64 : Shape := ⟨3, ![2, 409600, 64]⟩
abbrev S2 : Shape := ⟨1, ![2]⟩
abbrev S2x1 : Shape := ⟨2, ![2, 1]⟩
abbrev S2x100000x2 : Shape := ⟨3, ![2, 100000, 2]⟩
abbrev S2x64x409600 : Shape := ⟨3, ![2, 64, 409600]⟩
abbrev S2x64x640x640 : Shape := ⟨4, ![2, 64, 640, 640]⟩
abbrev S2x1x64x640x640 : Shape := ⟨5, ![2, 1, 64, 640, 640]⟩
abbrev S2x2x64x640x640 : Shape := ⟨5, ![2, 2, 64, 640, 640]⟩
abbrev S4x64x640x640 : Shape := ⟨4, ![4, 64, 640, 640]⟩

abbrev nBuf : Space → Nat
  | .hbm => 116
  | .vmem => 0
  | .smem => 0
  | _ => 0

abbrev bufTy : (tb : Table) → Fin (tcTables nBuf tb) → BufTy
  | .hbm, ⟨0, _⟩ => ⟨S2x100000x3, .f32⟩
  | .hbm, ⟨1, _⟩ => ⟨S2x100000, .i1⟩
  | .hbm, ⟨2, _⟩ => ⟨S2x100000, .i32⟩
  | .hbm, ⟨3, _⟩ => ⟨S2x100000x3, .f32⟩
  | .hbm, ⟨4, _⟩ => ⟨S2x100000, .i1⟩
  | .hbm, ⟨5, _⟩ => ⟨S2x100000, .i32⟩
  | .hbm, ⟨6, _⟩ => ⟨S64x3, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S2x100000x64, .f32⟩
  | .hbm, ⟨13, _⟩ => ⟨S1x1x64, .f32⟩
  | .hbm, ⟨14, _⟩ => ⟨S2x100000x64, .f32⟩
  | .hbm, ⟨15, _⟩ => ⟨S2x100000x64, .f32⟩
  | .hbm, ⟨16, _⟩ => ⟨S1x1x64, .f32⟩
  | .hbm, ⟨17, _⟩ => ⟨S2x100000x64, .f32⟩
  | .hbm, ⟨18, _⟩ => ⟨S2x100000x64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x1x64, .f32⟩
  | .hbm, ⟨25, _⟩ => ⟨S2x100000x64, .f32⟩
  | .hbm, ⟨26, _⟩ => ⟨S2x100000x64, .f32⟩
  | .hbm, ⟨27, _⟩ => ⟨S1x1x64, .f32⟩
  | .hbm, ⟨28, _⟩ => ⟨S2x100000x64, .f32⟩
  | .hbm, ⟨29, _⟩ => ⟨S2x100000x64, .f32⟩
  | .hbm, ⟨30, _⟩ => ⟨S_, .f32⟩
  | .hbm, ⟨31, _⟩ => ⟨S2x100000x64, .f32⟩
  | .hbm, ⟨32, _⟩ => ⟨S2x100000x64, .f32⟩
  | .hbm, ⟨33, _⟩ => ⟨S2x100000x1, .i1⟩
  | .hbm, ⟨34, _⟩ => ⟨S2x100000x1, .f32⟩
  | .hbm, ⟨35, _⟩ => ⟨S2x100000x64, .f32⟩
  | .hbm, ⟨36, _⟩ => ⟨S2x100000x64, .f32⟩
  | .hbm, ⟨37, _⟩ => ⟨S2x100000x64, .f32⟩
  | .hbm, ⟨38, _⟩ => ⟨S1x1x64, .f32⟩
  | .hbm, ⟨39, _⟩ => ⟨S2x100000x64, .f32⟩
  | .hbm, ⟨40, _⟩ => ⟨S2x100000x64, .f32⟩
  | .hbm, ⟨41, _⟩ => ⟨S1x1x64, .f32⟩
  | .hbm, ⟨42, _⟩ => ⟨S2x100000x64, .f32⟩
  | .hbm, ⟨43, _⟩ => ⟨S2x100000x64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S1x1x64, .f32⟩
  | .hbm, ⟨50, _⟩ => ⟨S2x100000x64, .f32⟩
  | .hbm, ⟨51, _⟩ => ⟨S2x100000x64, .f32⟩
  | .hbm, ⟨52, _⟩ => ⟨S1x1x64, .f32⟩
  | .hbm, ⟨53, _⟩ => ⟨S2x100000x64, .f32⟩
  | .hbm, ⟨54, _⟩ => ⟨S2x100000x64, .f32⟩
  | .hbm, ⟨55, _⟩ => ⟨S_, .f32⟩
  | .hbm, ⟨56, _⟩ => ⟨S2x100000x64, .f32⟩
  | .hbm, ⟨57, _⟩ => ⟨S2x100000x64, .f32⟩
  | .hbm, ⟨58, _⟩ => ⟨S2x100000x1, .i1⟩
  | .hbm, ⟨59, _⟩ => ⟨S2x100000x1, .f32⟩
  | .hbm, ⟨60, _⟩ => ⟨S2x100000x64, .f32⟩
  | .hbm, ⟨61, _⟩ => ⟨S2x100000x64, .f32⟩
  | .hbm, ⟨62, _⟩ => ⟨S_, .f32⟩
  | .hbm, ⟨63, _⟩ => ⟨S2x409600x64, .f32⟩
  | .hbm, ⟨64, _⟩ => ⟨S2, .i32⟩
  | .hbm, ⟨65, _⟩ => ⟨S2x1, .i32⟩
  | .hbm, ⟨66, _⟩ => ⟨S_, .i32⟩
  | .hbm, ⟨67, _⟩ => ⟨S2x1, .i32⟩
  | .hbm, ⟨68, _⟩ => ⟨S2x1, .i1⟩
  | .hbm, ⟨69, _⟩ => ⟨S_, .i32⟩
  | .hbm, ⟨70, _⟩ => ⟨S2x1, .i32⟩
  | .hbm, ⟨71, _⟩ => ⟨S2x1, .i32⟩
  | .hbm, ⟨72, _⟩ => ⟨S2x1, .i32⟩
  | .hbm, ⟨73, _⟩ => ⟨S_, .i32⟩
  | .hbm, ⟨74, _⟩ => ⟨S2x100000, .i32⟩
  | .hbm, ⟨75, _⟩ => ⟨S2x100000, .i1⟩
  | .hbm, ⟨76, _⟩ => ⟨S_, .i32⟩
  | .hbm, ⟨77, _⟩ => ⟨S2x100000, .i32⟩
  | .hbm, ⟨78, _⟩ => ⟨S2x100000, .i32⟩
  | .hbm, ⟨79, _⟩ => ⟨S2x100000, .i32⟩
  | .hbm, ⟨80, _⟩ => ⟨S2x100000, .i32⟩
  | .hbm, ⟨81, _⟩ => ⟨S2x100000x1, .i32⟩
  | .hbm, ⟨82, _⟩ => ⟨S2x100000x1, .i32⟩
  | .hbm, ⟨83, _⟩ => ⟨S2x100000x2, .i32⟩
  | .hbm, ⟨84, _⟩ => ⟨S2x409600x64, .f32⟩
  | .hbm, ⟨85, _⟩ => ⟨S2x64x409600, .f32⟩
  | .hbm, ⟨86, _⟩ => ⟨S2x64x640x640, .f32⟩
  | .hbm, ⟨87, _⟩ => ⟨S_, .f32⟩
  | .hbm, ⟨88, _⟩ => ⟨S2x409600x64, .f32⟩
  | .hbm, ⟨89, _⟩ => ⟨S2, .i32⟩
  | .hbm, ⟨90, _⟩ => ⟨S2x1, .i32⟩
  | .hbm, ⟨91, _⟩ => ⟨S_, .i32⟩
  | .hbm, ⟨92, _⟩ => ⟨S2x1, .i32⟩
  | .hbm, ⟨93, _⟩ => ⟨S2x1, .i1⟩
  | .hbm, ⟨94, _⟩ => ⟨S_, .i32⟩
  | .hbm, ⟨95, _⟩ => ⟨S2x1, .i32⟩
  | .hbm, ⟨96, _⟩ => ⟨S2x1, .i32⟩
  | .hbm, ⟨97, _⟩ => ⟨S2x1, .i32⟩
  | .hbm, ⟨98, _⟩ => ⟨S_, .i32⟩
  | .hbm, ⟨99, _⟩ => ⟨S2x100000, .i32⟩
  | .hbm, ⟨100, _⟩ => ⟨S2x100000, .i1⟩
  | .hbm, ⟨101, _⟩ => ⟨S_, .i32⟩
  | .hbm, ⟨102, _⟩ => ⟨S2x100000, .i32⟩
  | .hbm, ⟨103, _⟩ => ⟨S2x100000, .i32⟩
  | .hbm, ⟨104, _⟩ => ⟨S2x100000, .i32⟩
  | .hbm, ⟨105, _⟩ => ⟨S2x100000, .i32⟩
  | .hbm, ⟨106, _⟩ => ⟨S2x100000x1, .i32⟩
  | .hbm, ⟨107, _⟩ => ⟨S2x100000x1, .i32⟩
  | .hbm, ⟨108, _⟩ => ⟨S2x100000x2, .i32⟩
  | .hbm, ⟨109, _⟩ => ⟨S2x409600x64, .f32⟩
  | .hbm, ⟨110, _⟩ => ⟨S2x64x409600, .f32⟩
  | .hbm, ⟨111, _⟩ => ⟨S2x64x640x640, .f32⟩
  | .hbm, ⟨112, _⟩ => ⟨S2x1x64x640x640, .f32⟩
  | .hbm, ⟨113, _⟩ => ⟨S2x1x64x640x640, .f32⟩
  | .hbm, ⟨114, _⟩ => ⟨S2x2x64x640x640, .f32⟩
  | .hbm, ⟨115, _⟩ => ⟨S4x64x640x640, .f32⟩
  | _, _ => ⟨S2x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c : Ref sig .tc := ⟨.hbm, 66, rfl⟩
abbrev main_v47 : Ref sig .tc := ⟨.hbm, 67, rfl⟩
abbrev main_v48 : Ref sig .tc := ⟨.hbm, 68, rfl⟩
abbrev main_c_2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_3 : Ref sig .tc := ⟨.hbm, 73, rfl⟩
abbrev main_v52 : Ref sig .tc := ⟨.hbm, 74, rfl⟩
abbrev main_v53 : Ref sig .tc := ⟨.hbm, 75, rfl⟩
abbrev main_c_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_6 : Ref sig .tc := ⟨.hbm, 91, rfl⟩
abbrev main_v67 : Ref sig .tc := ⟨.hbm, 92, rfl⟩
abbrev main_v68 : Ref sig .tc := ⟨.hbm, 93, rfl⟩
abbrev main_c_7 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_8 : Ref sig .tc := ⟨.hbm, 98, rfl⟩
abbrev main_v72 : Ref sig .tc := ⟨.hbm, 99, rfl⟩
abbrev main_v73 : Ref sig .tc := ⟨.hbm, 100, rfl⟩
abbrev main_c_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2x100000x64_0_1_2 : S1x1x64.BroadcastsInDim S2x100000x64 (![0, 1, 2] : Fin 3 → Fin S2x100000x64.rank)
  bcast_S_S64 : S_.BroadcastsInDim S64 (![] : Fin 0 → Fin S64.rank)
  bcast_S_S2x100000x64 : S_.BroadcastsInDim S2x100000x64 (![] : Fin 0 → Fin S2x100000x64.rank)
  bcast_S2x100000_S2x100000x1_0_1 : S2x100000.BroadcastsInDim S2x100000x1 (![0, 1] : Fin 2 → Fin S2x100000x1.rank)
  bcast_S2x100000x1_S2x100000x64_0_1_2 : S2x100000x1.BroadcastsInDim S2x100000x64 (![0, 1, 2] : Fin 3 → Fin S2x100000x64.rank)
  bcast_S_S2x409600x64 : S_.BroadcastsInDim S2x409600x64 (![] : Fin 0 → Fin S2x409600x64.rank)
  bcast_S2_S2x1_0 : S2.BroadcastsInDim S2x1 (![0] : Fin 1 → Fin S2x1.rank)
  bcast_S_S2x1 : S_.BroadcastsInDim S2x1 (![] : Fin 0 → Fin S2x1.rank)
  bcast_S_S2x100000 : S_.BroadcastsInDim S2x100000 (![] : Fin 0 → Fin S2x100000.rank)
  bcast_S2x1_S2x100000_0_1 : S2x1.BroadcastsInDim S2x100000 (![0, 1] : Fin 2 → Fin S2x100000.rank)
  concatenates_S2x100000x1_S2x100000x1_S2x100000x2_d2 : Shape.Concatenates [S2x100000x1, S2x100000x1] S2x100000x2 2
  transposes_S2x409600x64_S2x64x409600_0_2_1 : S2x409600x64.Transposes [0, 2, 1] S2x64x409600
  shapeCasts_S2x64x409600_S2x64x640x640 : S2x64x409600.ShapeCasts S2x64x640x640
  bcast_S2x64x640x640_S2x1x64x640x640_0_2_3_4 : S2x64x640x640.BroadcastsInDim S2x1x64x640x640 (![0, 2, 3, 4] : Fin 4 → Fin S2x1x64x640x640.rank)
  concatenates_S2x1x64x640x640_S2x1x64x640x640_S2x2x64x640x640_d1 : Shape.Concatenates [S2x1x64x640x640, S2x1x64x640x640] S2x2x64x640x640 1
  shapeCasts_S2x2x64x640x640_S4x64x640x640 : S2x2x64x640x640.ShapeCasts S4x64x640x640
  dot_S2x100000x3_S64x3_S2x100000x64_2_1_01_0_n_n_wf : DotDims.WF S2x100000x3 S64x3 S2x100000x64 [2] [1] [0, 1] [0] [] []
  scatter_S2x409600x64_S2x100000x2_S2x100000x64_2_01_01_2_wf : ScatterDims.WF S2x409600x64 S2x100000x2 S2x100000x64 [2] [0, 1] [0, 1] 2

variable [Facts₀]

def dot_S2x100000x3_S64x3_S2x100000x64_2_1_01_0_n_n : DotDims S2x100000x3 S64x3 S2x100000x64 where
  lhsContracting := [2]
  rhsContracting := [1]
  lhsNonContracting := [0, 1]
  rhsNonContracting := [0]
  lhsBatch := []
  rhsBatch := []
  wf := dot_S2x100000x3_S64x3_S2x100000x64_2_1_01_0_n_n_wf
def scatter_S2x409600x64_S2x100000x2_S2x100000x64_2_01_01_2 : ScatterDims S2x409600x64 S2x100000x2 S2x100000x64 where
  updateWindowDims := [2]
  insertedWindowDims := [0, 1]
  scatterDimsToOperandDims := [0, 1]
  indexVectorDim := 2
  wf := scatter_S2x409600x64_S2x100000x2_S2x100000x64_2_01_01_2_wf

class Facts : Prop extends Facts₀ where

variable [Facts]
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.Spec.lean ====
/-
  What both programs compute, as one function of the twelve argument arrays.

  A point `n` of batch-time row `bt = 2·b + t` (`t = 0` the previous sweep, `t = 1` the current one) has three
  coordinates `x`; its embedding is the 64-vector  relu(BatchNorm(x·Wᵀ + bias)) · mask, BatchNorm in evaluation mode:
  `(h − μ) · γ/√(σ² + ε) + β`. The reference computes it in that order (`embR`); the kernel folds the normalisation into
  the weights and the bias beforehand, `x · (W·s)ᵀ + (bias·s + (β − μ·s))` with `s = γ/√(σ² + ε)` (`embK`). Over the reals
  the two agree by distributivity; on the extended reals that needs `s` finite, which is where `σ² ≥ 0` is used.

  The result is the pillar grid: cell `p = 640·x + y` of row `bt`, channel `d`, holds the sum of the embeddings' channel
  `d` over the points whose (wrapped) grid index is `p`; a point whose index is outside `[0, 409600)` after the wrap
  is dropped.
-/
import Idealize.ShloMosaic.PureOps.Ideal
import Idealize.ShloMosaic.Lib.ValueIdx
import proofs.«151703_j71313636983306_1_alg».proof.Proof.LibGatherScatter

noncomputable section

namespace Cert.Spec

open Idealize.ShloMosaic Idealize.ShloMosaic.ValueIdx Cert.LibGatherScatter
open scoped BigOperators

/-- The point clouds `[2, 100000, 3]`. -/
abbrev Spcl : Shape := ⟨3, ![2, 100000, 3]⟩
/-- Per-point words `[2, 100000]` (masks, grid indices). -/
abbrev Spt : Shape := ⟨2, ![2, 100000]⟩
/-- The weight `[64, 3]`. -/
abbrev Swt : Shape := ⟨2, ![64, 3]⟩
/-- Per-channel vectors `[64]`. -/
abbrev Sch : Shape := ⟨1, ![64]⟩
/-- The result `[4, 64, 640, 640]`. -/
abbrev Sout : Shape := ⟨4, ![4, 64, 640, 640]⟩

/-- BatchNorm's ε as the programs carry it (the binary value nearest 1e-5). -/
def eps : EReal := Ideal.ofBits .f32 0x3727C5AC#32
/-- The zero word (ReLU's floor and the grid's initial contents). -/
def zeroW : EReal := Ideal.ofBits .f32 0x00000000#32

/-- The normalisation's scale `γ / √(σ² + ε)`. -/
def scale (g v : EReal) : EReal := Ideal.div g (Ideal.sqrt (v + eps))

/-- The embedding's channel as the reference computes it: linear layer, normalisation, ReLU, mask. -/
def embR (x w : Fin 3 → EReal) (b g be mu v : EReal) (mk : BitVec 1) : EReal :=
  max ((((∑ k : Fin 3, x k * w k) + b) - mu) * scale g v + be) zeroW * ((mk.toNat : ℝ) : EReal)

/-- The same channel as the kernel computes it: the normalisation folded into weight and bias first. -/
def embK (x w : Fin 3 → EReal) (b g be mu v : EReal) (mk : BitVec 1) : EReal :=
  max ((∑ k : Fin 3, x k * (w k * scale g v)) + (b * scale g v + (be - mu * scale g v))) zeroW * ((mk.toNat : ℝ) : EReal)

/-- Batch of the batch-time row `bt = 2·b + t`. -/
def bOf (bt : Fin 4) : Fin 2 := ⟨bt.val / 2, by omega⟩

/-- Row `bt`'s array entry: the previous sweep's for even `bt`, the current sweep's for odd. -/
def rowSel {α : Type} {s : Shape} (bt : Fin 4) (a0 a1 : s.Idx → α) (i : s.Idx) : α :=
  if bt.val % 2 = 0 then a0 i else a1 i

/-- Cell `p`'s sum: the zero word plus the entries `e n` over the points whose wrapped grid index is `p`. -/
def pillar (gi : Fin 100000 → BitVec 32) (e : Fin 100000 → EReal) (p : ℕ) : EReal :=
  zeroW + ∑ n ∈ Finset.univ.filter (fun n : Fin 100000 => (wrapW 409600#32 (gi n)).toInt = (p : ℤ)), e n

/-- The pillar grid from a point embedding `emb` (either form). -/
def resultOf (emb : (Fin 3 → EReal) → (Fin 3 → EReal) → EReal → EReal → EReal → EReal → EReal → BitVec 1 → EReal)
    (x0 : Spcl.Idx → EReal) (k1 : IVec Spt 1) (g2 : IVec Spt 32) (x3 : Spcl.Idx → EReal) (k4 : IVec Spt 1) (g5 : IVec Spt 32)
    (W : Swt.Idx → EReal) (b g be mu v : Sch.Idx → EReal) : Sout.Idx → EReal := fun i =>
  pillar (fun n => rowSel (i 0) g2 g5 (ix2 (bOf (i 0)) n))
    (fun n => emb (fun k => rowSel (i 0) x0 x3 (ix3 (bOf (i 0)) n k)) (fun k => W (ix2 (i 1) k))
      (b (ix1 (i 1))) (g (ix1 (i 1))) (be (ix1 (i 1))) (mu (ix1 (i 1))) (v (ix1 (i 1)))
      (rowSel (i 0) k1 k4 (ix2 (bOf (i 0)) n)))
    (640 * (i 2).val + (i 3).val)

/-- The reference's result. -/
abbrev resultR := resultOf embR
/-- The kernel's result. -/
abbrev resultK := resultOf embK

end Cert.Spec

end
-- ==== Proof.EmbedLaw.lean ====
/-
  The two forms of a point's embedding agree when every number in them is finite and the variance is not negative.

  With `s = γ/√(σ² + ε)`: `σ² ≥ 0` and `ε > 0` make `σ² + ε` a positive real, its root a positive real, and `s` a real.
  Then everything is real arithmetic, and  ((Σ x·w + b) − μ)·s + β = Σ x·(w·s) + (b·s + (β − μ·s))  by distributivity.
  (Where `s` is infinite the two sides differ: distributivity fails at `⊤ + ⊥`.)
-/
import proofs.«151703_j71313636983306_1_alg».proof.Proof.Spec

set_option maxRecDepth 16384

noncomputable section

namespace Cert.Spec

open Idealize.ShloMosaic Idealize.ShloMosaic.ValueIdx
open scoped BigOperators

/-- An extended real that is a real number. -/
def IsFin (x : EReal) : Prop := ∃ r : ℝ, x = (r : EReal)

/-- ε is a positive real. -/
theorem eps_pos : ∃ e : ℝ, 0 < e ∧ eps = (e : EReal) := by
  -- sign 0, exponent field 110, fraction field 2606508: the value (2²³ + 2606508) · 2^(110 − 127 − 23) = 10995116 · 2⁻⁴⁰
  refine ⟨(10995116 : ℝ) * (2 : ℝ) ^ (-40 : ℤ), by positivity, ?_⟩
  unfold eps
  simp [Ideal.ofBits, Ideal.ieee, -EReal.coe_mul]

/-- The scale of a finite γ over a non-negative finite variance is finite. -/
theorem scale_isFin {g v : EReal} (hg : IsFin g) (hv : IsFin v) (hv0 : 0 ≤ v) : IsFin (scale g v) := by
  obtain ⟨a, rfl⟩ := hg
  obtain ⟨r, rfl⟩ := hv
  obtain ⟨e, he, hE⟩ := eps_pos
  have hr : 0 ≤ r := by exact_mod_cast hv0
  have hpos : 0 < r + e := by linarith
  have hsq : 0 < Real.sqrt (r + e) := Real.sqrt_pos.mpr hpos
  -- the scale is the real a / √(r + e): the root is of a positive real, so it is real and not zero
  refine ⟨a * (Real.sqrt (r + e))⁻¹, ?_⟩
  unfold scale
  rw [hE, ← EReal.coe_add, Ideal.sqrt_coe, if_neg (not_lt.mpr hpos.le)]
  unfold Ideal.div
  have hne : ((Real.sqrt (r + e) : ℝ) : EReal) ≠ 0 := by
    exact_mod_cast hsq.ne'
  rw [if_neg hne, ← EReal.coe_inv, ← EReal.coe_mul]

/-- The kernel's folded form of the embedding is the reference's, at finite numbers and a non-negative variance. -/
theorem embK_eq_embR (x w : Fin 3 → EReal) (b g be mu v : EReal) (mk : BitVec 1)
    (hx : ∀ k, IsFin (x k)) (hw : ∀ k, IsFin (w k)) (hb : IsFin b) (hg : IsFin g) (hbe : IsFin be) (hmu : IsFin mu)
    (hv : IsFin v) (hv0 : 0 ≤ v) :
    embK x w b g be mu v mk = embR x w b g be mu v mk := by
  -- name the reals behind every number; the scale stays one real s from here on
  obtain ⟨s, hs⟩ := scale_isFin hg hv hv0
  choose xr hxr using hx
  choose wr hwr using hw
  obtain ⟨br, rfl⟩ := hb
  obtain ⟨ber, rfl⟩ := hbe
  obtain ⟨mur, rfl⟩ := hmu
  unfold embK embR
  rw [hs]
  -- the two forms differ only inside the ReLU: compare the arguments of max (·) 0 · mask
  refine congrArg (fun t => max t zeroW * ((mk.toNat : ℝ) : EReal)) ?_
  rw [Fin.sum_univ_three, Fin.sum_univ_three]
  simp only [hxr, hwr]
  -- both sides are now real expressions; the identity is distributivity
  norm_cast
  ring

/-- Hence the two pillar grids agree. -/
theorem resultK_eq_resultR
    (x0 : Spcl.Idx → EReal) (k1 : IVec Spt 1) (g2 : IVec Spt 32) (x3 : Spcl.Idx → EReal) (k4 : IVec Spt 1) (g5 : IVec Spt 32)
    (W : Swt.Idx → EReal) (b g be mu v : Sch.Idx → EReal)
    (h0 : ∀ i, IsFin (x0 i)) (h3 : ∀ i, IsFin (x3 i)) (hW : ∀ i, IsFin (W i)) (hb : ∀ i, IsFin (b i)) (hg : ∀ i, IsFin (g i))
    (hbe : ∀ i, IsFin (be i)) (hmu : ∀ i, IsFin (mu i)) (hv : ∀ i, IsFin (v i)) (hv0 : ∀ i, 0 ≤ v i) :
    resultK x0 k1 g2 x3 k4 g5 W b g be mu v = resultR x0 k1 g2 x3 k4 g5 W b g be mu v := by
  funext i
  show resultOf embK x0 k1 g2 x3 k4 g5 W b g be mu v i = resultOf embR x0 k1 g2 x3 k4 g5 W b g be mu v i
  unfold resultOf pillar
  refine congrArg (zeroW + ·) (Finset.sum_congr rfl fun n _ => ?_)
  refine embK_eq_embR _ _ _ _ _ _ _ _ (fun k => ?_) (fun k => hW _) (hb _) (hg _) (hbe _) (hmu _) (hv _) (hv0 _)
  unfold rowSel
  split
  · exact h0 _
  · exact h3 _

end Cert.Spec

end
-- ==== Proof.PreFacts.lean ====
/-
  What the precondition says of the argument arrays: every entry of every float input is a real number, and every
  variance is at least zero. The precondition is the conjunction of "all |x| < +∞" over the eight float inputs and
  "all σ² ≥ 0"; each conjunct is an all-reduction of a comparison, read back entry by entry.
-/
import proofs.«151703_j71313636983306_1_alg».proof.Pre_finite_inputs
import proofs.«151703_j71313636983306_1_alg».proof.Proof.Gen.Pre_finite_inputs
import proofs.«151703_j71313636983306_1_alg».proof.Proof.EmbedLaw
import Idealize.ShloMosaic.Lib.ReduceAll

noncomputable section

namespace Cert.PreFacts

open Idealize.ShloMosaic Idealize.ShloMosaic.ValueIdx Cert.Spec
open Cert.Pre_finite_inputs (S_)

/-- The rank-0 shape has one index. -/
instance subsingleton_S_ : Subsingleton S_.Idx := ⟨fun a b => funext fun d => d.elim0⟩

/-- The pattern of +∞: exponent field all ones, fraction field zero, sign clear. -/
theorem ofBits_inf : Ideal.ofBits .f32 0x7F800000#32 = ⊤ := by simp [Ideal.ofBits, Ideal.ieee]
/-- The pattern of zero. -/
theorem ofBits_zero : Ideal.ofBits .f32 0x00000000#32 = 0 := by simp [Ideal.ofBits, Ideal.ieee]

/-- A one-bit word made from a truth value is 1 exactly when the value is true. -/
theorem ofBool_eq_one (b : Bool) : BitVec.ofBool b = 1#1 ↔ b = true := by cases b <;> decide

/-- One entry: |x| < +∞ makes x a real. For x = +∞ the maximum's first argument is +∞; for x = −∞ the second, −x, is. -/
theorem isFin_of_lt_top (x : EReal)
    (h : Ideal.cmp .olt (max x (-x)) (Ideal.ofBits .f32 0x7F800000#32) = 1#1) : IsFin x := by
  rw [ofBits_inf] at h
  change BitVec.ofBool (decide (max x (-x) < ⊤)) = 1#1 at h
  rw [ofBool_eq_one, decide_eq_true_eq, max_lt_iff] at h
  obtain ⟨h1, h2⟩ := h
  induction x using EReal.rec with
  | bot => exact absurd h2 (by simp)
  | coe r => exact ⟨r, rfl⟩
  | top => exact absurd h1 (lt_irrefl _)

/-- One entry: x ≥ 0 as the comparison's bit. -/
theorem nonneg_of_oge (x : EReal)
    (h : Ideal.cmp .oge x (Ideal.ofBits .f32 0x00000000#32) = 1#1) : 0 ≤ x := by
  rw [ofBits_zero] at h
  change BitVec.ofBool (decide ((0 : EReal) ≤ x)) = 1#1 at h
  rwa [ofBool_eq_one, decide_eq_true_eq] at h

/-- "All |x| < +∞" over an array of any shape, read back at an entry: the all-reduction that came out 1 met a 1 at
    every index, and the comparison at index i is the one-entry fact above (the broadcast scalar reads +∞ everywhere). -/
theorem all_isFin {s : Shape} {axes : List (Fin s.rank)} (hb : S_.BroadcastsInDim s (![] : Fin 0 → Fin s.rank))
    (hr : s.ReducesTo axes S_) (hu : 0 < S_.numel) (x : s.Idx → EReal)
    (e : Host.reduce IntOp.andi (cmpf (F := Ideal) (φ := .f32) .olt (Host.absf (F := Ideal) (φ := .f32) x)
          (broadcastInDim s ![] hb (constant (F := Ideal) S_ .f32 0x7F800000#32))) (constantI S_ 1 1#1) hr hu ix0 = 1#1)
    (i : s.Idx) : IsFin (x i) :=
  isFin_of_lt_top (x i) (Host.reduce_andi_all _ _ hr hu ix0 e i)

/-- "All x ≥ 0" over an array of any shape, read back at an entry. -/
theorem all_nonneg {s : Shape} {axes : List (Fin s.rank)} (hb : S_.BroadcastsInDim s (![] : Fin 0 → Fin s.rank))
    (hr : s.ReducesTo axes S_) (hu : 0 < S_.numel) (x : s.Idx → EReal)
    (e : Host.reduce IntOp.andi (cmpf (F := Ideal) (φ := .f32) .oge x
          (broadcastInDim s ![] hb (constant (F := Ideal) S_ .f32 0x00000000#32))) (constantI S_ 1 1#1) hr hu ix0 = 1#1)
    (i : s.Idx) : 0 ≤ x i :=
  nonneg_of_oge (x i) (Host.reduce_andi_all _ _ hr hu ix0 e i)

/-- Every float entry is a real number and every variance is non-negative, from the precondition. -/
theorem of_pre [hP : Cert.Pre_finite_inputs.Facts]
    (x0 : Spcl.Idx → EReal) (k1 : IVec Spt 1) (g2 : IVec Spt 32) (x3 : Spcl.Idx → EReal) (k4 : IVec Spt 1) (g5 : IVec Spt 32)
    (W : Swt.Idx → EReal) (b g be mu v : Sch.Idx → EReal)
    (h : Cert.Pre_finite_inputs.fn (F := Ideal) x0 k1 g2 x3 k4 g5 W b g be mu v = (fun _ => 1#1)) :
    (∀ i, IsFin (x0 i)) ∧ (∀ i, IsFin (x3 i)) ∧ (∀ i, IsFin (W i)) ∧ (∀ i, IsFin (b i)) ∧ (∀ i, IsFin (g i))
      ∧ (∀ i, IsFin (be i)) ∧ (∀ i, IsFin (mu i)) ∧ (∀ i, IsFin (v i)) ∧ (∀ i, 0 ≤ v i) := by
  -- the precondition's one word is a left-nested conjunction of nine all-reductions; take them off from the right
  have h0 := congrFun h ix0
  dsimp only [Cert.Pre_finite_inputs.fn, Cert.Pre_finite_inputs.fn_part1, Cert.Pre_finite_inputs.fn_part2, andi] at h0
  obtain ⟨h0, ev0⟩ := IntOp.andi_eq_one.1 h0
  obtain ⟨h0, ev⟩ := IntOp.andi_eq_one.1 h0
  obtain ⟨h0, emu⟩ := IntOp.andi_eq_one.1 h0
  obtain ⟨h0, ebe⟩ := IntOp.andi_eq_one.1 h0
  obtain ⟨h0, eg⟩ := IntOp.andi_eq_one.1 h0
  obtain ⟨h0, eb⟩ := IntOp.andi_eq_one.1 h0
  obtain ⟨h0, eW⟩ := IntOp.andi_eq_one.1 h0
  obtain ⟨e0, e3⟩ := IntOp.andi_eq_one.1 h0
  exact ⟨all_isFin _ _ _ x0 e0, all_isFin _ _ _ x3 e3, all_isFin _ _ _ W eW, all_isFin _ _ _ b eb, all_isFin _ _ _ g eg,
    all_isFin _ _ _ be ebe, all_isFin _ _ _ mu emu, all_isFin _ _ _ v ev, all_nonneg _ _ _ v ev0⟩

end Cert.PreFacts

end
-- ==== Proof.RefImports.lean ====
import proofs.«151703_j71313636983306_1_alg».proof.Proof.Gen.ReferenceIdeal.Run
import proofs.«151703_j71313636983306_1_alg».proof.Proof.Gen.ReferenceIdeal.Read
-- ==== Proof.LibScatterBatch.lean ====
/-
  The host's accumulating scatter in the shape the batched segment sum `x.at[arange(B)[:, None], idx].add(u)` lowers to,
  READ AT AN INDEX at the ideal instance, for any sizes: the operand `[B, P, C]` is indexed on its first two axes by
  the two components of an index vector (the index vectors an array `[B, N, 2]` of words), the third axis carried whole;
  the updates are `[B, N, C]`. Update row `(b', n)` is added to operand row `(b, p)` exactly when its two words, read
  signed, are `b` and `p`; a row whose words fall outside the operand is dropped. When the first word of row `(b', n)`
  is `b'` itself (the batch index broadcast along the row), the sum at `(b, p)` runs over the points `n` of batch `b`
  alone. Each lemma is stated for ANY dimension-number record of the given type whose fields are the listed ones.
-/
import proofs.«151703_j71313636983306_1_alg».proof.Proof.LibGatherScatter

set_option maxRecDepth 16384

noncomputable section

namespace Cert.LibScatterBatch

open Idealize.ShloMosaic Idealize.ShloMosaic.ValueIdx Cert.LibGatherScatter
open scoped BigOperators

section Batch3
variable {B P C N : Nat} (d : ScatterDims ⟨3, ![B, P, C]⟩ ⟨3, ![B, N, 2]⟩ ⟨3, ![B, N, C]⟩)
  (huw : d.updateWindowDims = [2]) (hiw : d.insertedWindowDims = [0, 1])
  (hsd : d.scatterDimsToOperandDims = [0, 1]) (hivd : d.indexVectorDim = 2)
include huw hiw hsd hivd

/-- Update `j`'s start on the batch axis is the signed value of its index vector's first word. -/
theorem start3_batch {w : Nat} (idx : IVec ⟨3, ![B, N, 2]⟩ w) (j : (⟨3, ![B, N, C]⟩ : Shape).Idx) :
    d.start j idx 0 = (idx (ix3 (j 0) (j 1) 0)).toInt := by
  obtain ⟨uw, iw, sd, iv, wf⟩ := d
  simp only at huw hiw hsd hivd
  subst huw hiw hsd hivd
  unfold ScatterDims.start
  rw [dif_pos (by decide : (0 : Fin 3) ∈ [(0 : Fin 3), 1])]
  congr 2
  funext b
  apply Fin.ext
  match b with
  | ⟨0, _⟩ => rfl
  | ⟨1, _⟩ => rfl
  | ⟨2, _⟩ => rfl

/-- Update `j`'s start on the cell axis is the signed value of its index vector's second word. -/
theorem start3_cell {w : Nat} (idx : IVec ⟨3, ![B, N, 2]⟩ w) (j : (⟨3, ![B, N, C]⟩ : Shape).Idx) :
    d.start j idx 1 = (idx (ix3 (j 0) (j 1) 1)).toInt := by
  obtain ⟨uw, iw, sd, iv, wf⟩ := d
  simp only at huw hiw hsd hivd
  subst huw hiw hsd hivd
  unfold ScatterDims.start
  rw [dif_pos (by decide : (1 : Fin 3) ∈ [(0 : Fin 3), 1])]
  congr 2
  funext b
  apply Fin.ext
  match b with
  | ⟨0, _⟩ => rfl
  | ⟨1, _⟩ => rfl
  | ⟨2, _⟩ => rfl

/-- The channel axis is not scatter-indexed: its start is `0`. -/
theorem start3_chan {w : Nat} (idx : IVec ⟨3, ![B, N, 2]⟩ w) (j : (⟨3, ![B, N, C]⟩ : Shape).Idx) :
    d.start j idx 2 = 0 := by
  obtain ⟨uw, iw, sd, iv, wf⟩ := d
  simp only at huw hiw hsd hivd
  subst huw hiw hsd hivd
  unfold ScatterDims.start
  rw [dif_neg (by decide : (2 : Fin 3) ∉ [(0 : Fin 3), 1])]

/-- The batch axis is an inserted one: no window coordinate on it. -/
theorem window3_batch (j : (⟨3, ![B, N, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The cell axis is an inserted one: no window coordinate on it. -/
theorem window3_cell (j : (⟨3, ![B, N, C]⟩ : Shape).Idx) : d.window j 1 = 0 := by
  obtain ⟨uw, iw, sd, iv, wf⟩ := d
  simp only at huw hiw hsd hivd
  subst huw hiw hsd hivd
  unfold ScatterDims.window
  rw [dif_neg (by simp [ScatterDims.sKept, Shape.kept])]

/-- The channel axis carries the update's window coordinate: its channel. -/
theorem window3_chan (j : (⟨3, ![B, N, C]⟩ : Shape).Idx) : d.window j 2 = (j 2).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when its index vector's two words, read signed, are `i`'s batch and cell, and
    `j`'s channel is `i`'s. -/
theorem resultIdx3_eq_some_iff {w : Nat} (idx : IVec ⟨3, ![B, N, 2]⟩ w) (j : (⟨3, ![B, N, C]⟩ : Shape).Idx)
    (i : (⟨3, ![B, P, C]⟩ : Shape).Idx) :
    d.resultIdx? j idx = some i ↔
      (idx (ix3 (j 0) (j 1) 0)).toInt = ((i 0).val : ℤ) ∧ (idx (ix3 (j 0) (j 1) 1)).toInt = ((i 1).val : ℤ)
        ∧ (j 2).val = (i 2).val := by
  rw [resultIdx?_eq_some_iff]
  constructor
  · intro h
    have h0 := h 0
    have h1 := h 1
    have h2 := h 2
    rw [start3_batch d huw hiw hsd hivd, window3_batch d huw hiw hsd hivd] at h0
    rw [start3_cell d huw hiw hsd hivd, window3_cell d huw hiw hsd hivd] at h1
    rw [start3_chan d huw hiw hsd hivd, window3_chan d huw hiw hsd hivd] at h2
    refine ⟨by simpa using h0, by simpa using h1, ?_⟩
    have h2' : ((j 2).val : ℤ) = ((i 2).val : ℤ) := by simpa using h2
    exact_mod_cast h2'
  · rintro ⟨h0, h1, h2⟩ a
    match a with
    | ⟨0, _⟩ =>
      show d.start j idx 0 + (d.window j 0 : ℤ) = ((i 0).val : ℤ)
      rw [start3_batch d huw hiw hsd hivd, window3_batch d huw hiw hsd hivd]
      simpa using h0
    | ⟨1, _⟩ =>
      show d.start j idx 1 + (d.window j 1 : ℤ) = ((i 1).val : ℤ)
      rw [start3_cell d huw hiw hsd hivd, window3_cell d huw hiw hsd hivd]
      simpa using h1
    | ⟨2, _⟩ =>
      show d.start j idx 2 + (d.window j 2 : ℤ) = ((i 2).val : ℤ)
      rw [start3_chan d huw hiw hsd hivd, window3_chan d huw hiw hsd hivd, h2]
      simp

/-- THE BATCHED SCATTER-ADD READ AT `(b, p, f)` when every index vector's first word is its own batch `b'`: the
    operand's element plus the sum, over the points `n` of batch `b` whose second word, read signed, is exactly `p`,
    of that update row's channel `f` (a word below `0` or at or past `P` meets no `p`: that row is dropped). -/
theorem scatterAdd3_apply {φ : FTy}
    (x : FVec Ideal ⟨3, ![B, P, C]⟩ φ) (idx : IVec ⟨3, ![B, N, 2]⟩ 32) (upd : FVec Ideal ⟨3, ![B, N, C]⟩ φ)
    (hbatch : ∀ (b' : Fin B) (n : Fin N), (idx (ix3 b' n 0)).toInt = (b'.val : ℤ))
    (b : Fin B) (p : Fin P) (f : Fin C) :
    Host.scatterAdd (F := Ideal) d x idx upd (ix3 b p f)
      = x (ix3 b p f)
        + ∑ n ∈ Finset.univ.filter (fun n : Fin N => (idx (ix3 b n 1)).toInt = (p.val : ℤ)), upd (ix3 b n f) := by
  show x (ix3 b p f) + ∑ j ∈ Finset.univ.filter (fun j => d.resultIdx? j idx = some (ix3 b p f)), upd j = _
  congr 1
  -- an update that lands at (b, p, f) is (b, its point, f): its first word is its own batch, its channel is f
  have hshape : ∀ j : (⟨3, ![B, N, C]⟩ : Shape).Idx, d.resultIdx? j idx = some (ix3 b p f) → j = ix3 b (j 1) f := fun j hj => by
    obtain ⟨h0, _, h2⟩ := (resultIdx3_eq_some_iff d huw hiw hsd hivd idx j (ix3 b p f)).mp hj
    rw [hbatch (j 0) (j 1)] at h0
    have hb : j 0 = b := Fin.ext (by exact_mod_cast h0)
    have hf : j 2 = f := Fin.ext h2
    rw [← hb, ← hf]
    exact eq_ix3 j
  refine Finset.sum_nbij' (fun j => j 1) (fun n => ix3 b n f) ?_ ?_ ?_ ?_ ?_
  · intro j hj
    have hl := (Finset.mem_filter.mp hj).2
    have hj' := hshape j hl
    obtain ⟨_, h1, _⟩ := (resultIdx3_eq_some_iff d huw hiw hsd hivd idx j (ix3 b p f)).mp hl
    have hb : j 0 = b := (congrFun hj' 0).trans rfl
    rw [hb] at h1
    exact Finset.mem_filter.mpr ⟨Finset.mem_univ _, h1⟩
  · intro n hn
    exact Finset.mem_filter.mpr ⟨Finset.mem_univ _,
      (resultIdx3_eq_some_iff d huw hiw hsd hivd idx (ix3 b n f) (ix3 b p f)).mpr
        ⟨hbatch b n, (Finset.mem_filter.mp hn).2, rfl⟩⟩
  · intro j hj
    exact (hshape j (Finset.mem_filter.mp hj).2).symm
  · intro n _
    rfl
  · intro j hj
    exact congrArg upd (hshape j (Finset.mem_filter.mp hj).2)

end Batch3

/-- A word that is a small natural number reads, signed, as that number. -/
theorem toInt_ofNat_small {k : Nat} (h : k < 2 ^ 31) : (BitVec.ofNat 32 k).toInt = (k : ℤ) := by
  rw [BitVec.toInt_eq_toNat_cond]
  simp only [BitVec.toNat_ofNat]
  have : k % 2 ^ 32 = k := Nat.mod_eq_of_lt (by omega)
  rw [this]
  split
  · rfl
  · omega

end Cert.LibScatterBatch

end
-- ==== Proof.RefValue.lean ====
/-
  The reference's result, read at an index, is the pillar grid of the reference-form embeddings.

  Row `bt = 2·b + t` of the result is sweep `t`'s grid for batch `b` (the two sweeps' grids are joined on a new axis and
  flattened with the batch axis). Each sweep's grid is the transposed, reshaped scatter-add of its masked embeddings at
  the index vectors (batch index, wrapped grid index); cell `p = 640·x + y`.
-/
import proofs.«151703_j71313636983306_1_alg».proof.Proof.RefImports
import proofs.«151703_j71313636983306_1_alg».proof.Proof.Spec
import proofs.«151703_j71313636983306_1_alg».proof.Proof.LibScatterBatch

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Spec Cert.LibGatherScatter Cert.LibScatterBatch
open scoped BigOperators

/-- A rank-1 index with coordinate `d` is `ix1 d`. -/
theorem ix1_of_val {n : Nat} (j : (⟨1, ![n]⟩ : Shape).Idx) (d : Fin n) (h : (j 0).val = d.val) : j = ix1 d := by
  funext a; match a with | ⟨0, _⟩ => exact Fin.ext h
/-- A rank-2 index with coordinates `a`, `b` is `ix2 a b`. -/
theorem ix2_of_val {n0 n1 : Nat} (j : (⟨2, ![n0, n1]⟩ : Shape).Idx) (a : Fin n0) (b : Fin n1)
    (h0 : (j 0).val = a.val) (h1 : (j 1).val = b.val) : j = ix2 a b := by
  funext e; match e with | ⟨0, _⟩ => exact Fin.ext h0 | ⟨1, _⟩ => exact Fin.ext h1
/-- A rank-3 index with coordinates `a`, `b`, `c` is `ix3 a b c`. -/
theorem ix3_of_val {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext e; match e with | ⟨0, _⟩ => exact Fin.ext h0 | ⟨1, _⟩ => exact Fin.ext h1 | ⟨2, _⟩ => exact Fin.ext h2
/-- A rank-4 index with coordinates `a`, `b`, `c`, `d` is `ix4 a b c d`. -/
theorem ix4_of_val {n0 n1 n2 n3 : Nat} (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) : j = ix4 a b c d := by
  funext e; match e with | ⟨0, _⟩ => exact Fin.ext h0 | ⟨1, _⟩ => exact Fin.ext h1 | ⟨2, _⟩ => exact Fin.ext h2 | ⟨3, _⟩ => exact Fin.ext h3

/-- The second sweep's stages are the first sweep's at the second sweep's arguments. -/
theorem v83_eq_v63 (x3 : (⟨S2x100000x3, .f32⟩ : BufTy).Contents (Elt Ideal)) (x4 : (⟨S2x100000, .i1⟩ : BufTy).Contents (Elt Ideal))
    (x5 : (⟨S2x100000, .i32⟩ : BufTy).Contents (Elt Ideal))
    (x6 : (⟨S64x3, .f32⟩ : BufTy).Contents (Elt Ideal)) (x7 x8 x9 x10 x11 : (⟨S64, .f32⟩ : BufTy).Contents (Elt Ideal)) :
    val_main_v83 (F := Ideal) x3 x4 x5 x6 x7 x8 x9 x10 x11 = val_main_v63 (F := Ideal) x3 x4 x5 x6 x7 x8 x9 x10 x11 := rfl

section Sweep
variable (c : (⟨S2x100000x3, .f32⟩ : BufTy).Contents (Elt Ideal)) (k : (⟨S2x100000, .i1⟩ : BufTy).Contents (Elt Ideal))
  (gi : (⟨S2x100000, .i32⟩ : BufTy).Contents (Elt Ideal))
  (x6 : (⟨S64x3, .f32⟩ : BufTy).Contents (Elt Ideal)) (x7 x8 x9 x10 x11 : (⟨S64, .f32⟩ : BufTy).Contents (Elt Ideal))

/-- The masked embedding of point `n` of batch `b`, channel `d`, as the reference's stages compute it. -/
theorem upd_apply (b : Fin 2) (n : Fin 100000) (d : Fin 64) :
    val_main_v21 (F := Ideal) c k x6 x7 x8 x9 x10 x11 (ix3 b n d)
      = embR (fun j => c (ix3 b n j)) (fun j => x6 (ix2 d j)) (x7 (ix1 d)) (x8 (ix1 d)) (x9 (ix1 d)) (x10 (ix1 d))
          (x11 (ix1 d)) (k (ix2 b n)) := by
  have el : ∀ j : Fin 3, lidx_main_v0 (ix3 b n d) j = ix3 b n j := fun j => ix3_of_val _ _ _ _ rfl rfl rfl
  have er : ∀ j : Fin 3, ridx_main_v0 (ix3 b n d) j = ix2 d j := fun j => ix2_of_val _ _ _ rfl rfl
  have e1 : idx_main_v1 (idx_main_v2 (ix3 b n d)) = ix1 d := ix1_of_val _ _ rfl
  have e4 : idx_main_v4 (idx_main_v5 (ix3 b n d)) = ix1 d := ix1_of_val _ _ rfl
  have e11 : idx_main_v11 (idx_main_v12 (ix3 b n d)) = ix1 d := ix1_of_val _ _ rfl
  have e14 : idx_main_v14 (idx_main_v15 (ix3 b n d)) = ix1 d := ix1_of_val _ _ rfl
  have e18 : idx_main_v18 (idx_main_v20 (ix3 b n d)) = ix2 b n := ix2_of_val _ _ _ rfl rfl
  rw [val_main_v21_apply, val_main_v17_apply, val_main_v16_apply, val_main_v13_apply, val_main_v6_apply, val_main_v3_apply,
    val_main_v0_apply, val_main_v2_apply, val_main_v1_apply, val_main_v5_apply, val_main_v4_apply, val_main_v12_apply,
    val_main_v11_apply, val_main_v10_apply, val_main_v9_apply, val_main_v8_apply, val_main_v7_apply, val_main_cst_apply,
    val_main_v15_apply, val_main_v14_apply, val_main_call0_v0_apply, val_main_call0_cst_apply, val_main_v20_apply,
    val_main_v19_apply, val_main_v18_apply]
  simp only [el, er, e1, e4, e11, e14, e18]
  rfl

/-- The index vector's first word of row `(b', n)` is the batch index `b'` (the iota, left alone by the wrap). -/
theorem idx_batch (b' : Fin 2) (n : Fin 100000) :
    val_main_v60 (F := Ideal) gi (ix3 b' n (0 : Fin 2)) = BitVec.ofNat 32 b'.val := by
  unfold val_main_v60
  refine (concatenate_pair_apply_left _ _ _ concatenates_S2x100000x1_S2x100000x1_S2x100000x2_d2 (ix3 b' n (0 : Fin 2)) rfl
    (ix3 b' n (0 : Fin 1)) (fun a => match a with | ⟨0, _⟩ => rfl | ⟨1, _⟩ => rfl | ⟨2, _⟩ => rfl)).trans ?_
  rw [val_main_v58_apply, val_main_v57_apply]
  refine (wrap_apply bcast_S_S2x1 bcast_S_S2x1 2#32 (val_main_v46 (F := Ideal)) _).trans ?_
  rw [val_main_v46_apply, val_main_v45_apply]
  show wrapW 2#32 (BitVec.ofNat 32 b'.val) = BitVec.ofNat 32 b'.val
  refine wrapW_of_nonneg ?_
  rw [toInt_ofNat_small (by have := b'.isLt; omega)]
  exact Int.natCast_nonneg _

/-- The index vector's second word of row `(b, n)` is the point's grid index, wrapped. -/
theorem idx_cell (b : Fin 2) (n : Fin 100000) :
    val_main_v60 (F := Ideal) gi (ix3 b n (1 : Fin 2)) = wrapW 409600#32 (gi (ix2 b n)) := by
  unfold val_main_v60
  refine (concatenate_pair_apply_right _ _ _ concatenates_S2x100000x1_S2x100000x1_S2x100000x2_d2 (ix3 b n (1 : Fin 2)) rfl rfl
    (ix3 b n (0 : Fin 1)) (fun a ha => match a, ha with
      | ⟨0, _⟩, _ => rfl
      | ⟨1, _⟩, _ => rfl
      | ⟨2, _⟩, ha => absurd rfl ha) rfl).trans ?_
  rw [val_main_v59_apply]
  have e : idx_main_v59 (ix3 b n (0 : Fin 1)) = ix2 b n := ix2_of_val _ _ _ rfl rfl
  rw [e]
  exact wrap_apply bcast_S_S2x100000 bcast_S_S2x100000 409600#32 gi (ix2 b n)

/-- The scatter-add at `(b, p, d)`: the zero word plus the masked embeddings, channel `d`, of the points of batch `b`
    whose wrapped grid index is `p`. -/
theorem scat_apply (b : Fin 2) (p : Fin 409600) (d : Fin 64) :
    val_main_v61 (F := Ideal) c k gi x6 x7 x8 x9 x10 x11 (ix3 b p d)
      = pillar (fun n => gi (ix2 b n))
          (fun n => embR (fun j => c (ix3 b n j)) (fun j => x6 (ix2 d j)) (x7 (ix1 d)) (x8 (ix1 d)) (x9 (ix1 d))
            (x10 (ix1 d)) (x11 (ix1 d)) (k (ix2 b n))) p.val := by
  unfold val_main_v61 pillar
  refine (scatterAdd3_apply scatter_S2x409600x64_S2x100000x2_S2x100000x64_2_01_01_2 rfl rfl rfl rfl _ _ _
    (fun b' n => (congrArg BitVec.toInt (idx_batch gi b' n)).trans (toInt_ofNat_small (by have := b'.isLt; omega)))
    b p d).trans ?_
  refine congrArg₂ (· + ·) ?_ (Finset.sum_congr (Finset.filter_congr fun n _ => by rw [idx_cell])
    fun n _ => upd_apply c k x6 x7 x8 x9 x10 x11 b n d)
  rw [val_main_v44_apply, val_main_cst_1_apply]
  rfl

/-- A sweep's grid at `(b, d, x, y)`: cell `p = 640·x + y` of the scatter, channel `d` (the transpose swaps cell and
    channel, the reshape splits the cell index). -/
theorem grid_apply (b : Fin 2) (d : Fin 64) (x y : Fin 640) :
    val_main_v63 (F := Ideal) c k gi x6 x7 x8 x9 x10 x11 (ix4 b d x y)
      = pillar (fun n => gi (ix2 b n))
          (fun n => embR (fun j => c (ix3 b n j)) (fun j => x6 (ix2 d j)) (x7 (ix1 d)) (x8 (ix1 d)) (x9 (ix1 d))
            (x10 (ix1 d)) (x11 (ix1 d)) (k (ix2 b n))) (640 * x.val + y.val) := by
  have hb := b.isLt
  have hd := d.isLt
  have hx := x.isLt
  have hy := y.isLt
  have hp : 640 * x.val + y.val < 409600 := by omega
  have e : idx_main_v62 (idx_main_v63 (ix4 b d x y)) = ix3 b (⟨640 * x.val + y.val, hp⟩ : Fin 409600) d :=
    ix3_of_val _ _ _ _
      (by show (((b.val * 64 + d.val) * 640 + x.val) * 640 + y.val) / 26214400 = b.val; omega)
      (by show (((b.val * 64 + d.val) * 640 + x.val) * 640 + y.val) % 409600 = 640 * x.val + y.val; omega)
      (by show (((b.val * 64 + d.val) * 640 + x.val) * 640 + y.val) / 409600 % 64 = d.val; omega)
  rw [val_main_v63_apply, val_main_v62_apply, e]
  exact scat_apply c k gi x6 x7 x8 x9 x10 x11 b ⟨_, hp⟩ d

end Sweep

/-- An even row reads the previous sweep's array. -/
theorem rowSel_even {α : Type} {s : Shape} (bt : Fin 4) (h : bt.val % 2 = 0) (a0 a1 : s.Idx → α) (i : s.Idx) :
    rowSel bt a0 a1 i = a0 i := by
  unfold rowSel
  rw [if_pos h]
/-- An odd row reads the current sweep's array. -/
theorem rowSel_odd {α : Type} {s : Shape} (bt : Fin 4) (h : ¬ bt.val % 2 = 0) (a0 a1 : s.Idx → α) (i : s.Idx) :
    rowSel bt a0 a1 i = a1 i := by
  unfold rowSel
  rw [if_neg h]

/-- The reference's result at `(bt, d, x, y)`: row `bt = 2·b + t` is sweep `t`'s grid for batch `b`. -/
theorem ref_apply
    (x0 : (⟨S2x100000x3, .f32⟩ : BufTy).Contents (Elt Ideal)) (x1 : (⟨S2x100000, .i1⟩ : BufTy).Contents (Elt Ideal))
    (x2 : (⟨S2x100000, .i32⟩ : BufTy).Contents (Elt Ideal)) (x3 : (⟨S2x100000x3, .f32⟩ : BufTy).Contents (Elt Ideal))
    (x4 : (⟨S2x100000, .i1⟩ : BufTy).Contents (Elt Ideal)) (x5 : (⟨S2x100000, .i32⟩ : BufTy).Contents (Elt Ideal))
    (x6 : (⟨S64x3, .f32⟩ : BufTy).Contents (Elt Ideal)) (x7 x8 x9 x10 x11 : (⟨S64, .f32⟩ : BufTy).Contents (Elt Ideal))
    (bt : Fin 4) (d : Fin 64) (gx gy : Fin 640) :
    val_main_v87 (F := Ideal) x0 x1 x2 x3 x4 x5 x6 x7 x8 x9 x10 x11 (ix4 bt d gx gy)
      = resultR x0 x1 x2 x3 x4 x5 x6 x7 x8 x9 x10 x11 (ix4 bt d gx gy) := by
  have hbt := bt.isLt
  have hd := d.isLt
  have hx := gx.isLt
  have hy := gy.isLt
  -- the right side with the index's coordinates read off
  show _ = pillar (fun n => rowSel bt x2 x5 (ix2 (bOf bt) n))
    (fun n => embR (fun j => rowSel bt x0 x3 (ix3 (bOf bt) n j)) (fun j => x6 (ix2 d j)) (x7 (ix1 d)) (x8 (ix1 d))
      (x9 (ix1 d)) (x10 (ix1 d)) (x11 (ix1 d)) (rowSel bt x1 x4 (ix2 (bOf bt) n))) (640 * gx.val + gy.val)
  have e : idx_main_v84 (ix5 (bOf bt) (0 : Fin 1) d gx gy) = ix4 (bOf bt) d gx gy := ix4_of_val _ _ _ _ _ rfl rfl rfl rfl
  rw [val_main_v87_apply]
  unfold val_main_v86
  by_cases ht : bt.val % 2 = 0
  · -- an even row: the first piece of the joined axis, the previous sweep
    refine (concatenate_pair_apply_left _ _ _ concatenates_S2x1x64x640x640_S2x1x64x640x640_S2x2x64x640x640_d1
      (idx_main_v87 (ix4 bt d gx gy)) rfl (ix5 (bOf bt) (0 : Fin 1) d gx gy) (fun a => match a with
        | ⟨0, _⟩ => by
          show bt.val / 2 = (((bt.val * 64 + d.val) * 640 + gx.val) * 640 + gy.val) / 52428800
          omega
        | ⟨1, _⟩ => by
          show 0 = (((bt.val * 64 + d.val) * 640 + gx.val) * 640 + gy.val) / 26214400 % 2
          omega
        | ⟨2, _⟩ => by
          show d.val = (((bt.val * 64 + d.val) * 640 + gx.val) * 640 + gy.val) / 409600 % 64
          omega
        | ⟨3, _⟩ => by
          show gx.val = (((bt.val * 64 + d.val) * 640 + gx.val) * 640 + gy.val) / 640 % 640
          omega
        | ⟨4, _⟩ => by
          show gy.val = (((bt.val * 64 + d.val) * 640 + gx.val) * 640 + gy.val) % 640
          omega)).trans ?_
    rw [val_main_v84_apply, e, grid_apply]
    simp only [rowSel_even bt ht]
  · -- an odd row: the second piece, the current sweep
    refine (concatenate_pair_apply_right _ _ _ concatenates_S2x1x64x640x640_S2x1x64x640x640_S2x2x64x640x640_d1
      (idx_main_v87 (ix4 bt d gx gy)) rfl rfl (ix5 (bOf bt) (0 : Fin 1) d gx gy) (fun a ha => match a, ha with
        | ⟨0, _⟩, _ => by
          show bt.val / 2 = (((bt.val * 64 + d.val) * 640 + gx.val) * 640 + gy.val) / 52428800
          omega
        | ⟨1, _⟩, ha => absurd rfl ha
        | ⟨2, _⟩, _ => by
          show d.val = (((bt.val * 64 + d.val) * 640 + gx.val) * 640 + gy.val) / 409600 % 64
          omega
        | ⟨3, _⟩, _ => by
          show gx.val = (((bt.val * 64 + d.val) * 640 + gx.val) * 640 + gy.val) / 640 % 640
          omega
        | ⟨4, _⟩, _ => by
          show gy.val = (((bt.val * 64 + d.val) * 640 + gx.val) * 640 + gy.val) % 640
          omega) (by
        show 0 + 1 = (((bt.val * 64 + d.val) * 640 + gx.val) * 640 + gy.val) / 26214400 % 2
        omega)).trans ?_
    rw [val_main_v85_apply]
    have e' : idx_main_v85 (ix5 (bOf bt) (0 : Fin 1) d gx gy) = ix4 (bOf bt) d gx gy := ix4_of_val _ _ _ _ _ rfl rfl rfl rfl
    rw [e', v83_eq_v63, grid_apply]
    simp only [rowSel_odd bt ht]

/-- The reference's result array is `resultR` of its arguments. -/
theorem ref_eq
    (x0 : (⟨S2x100000x3, .f32⟩ : BufTy).Contents (Elt Ideal)) (x1 : (⟨S2x100000, .i1⟩ : BufTy).Contents (Elt Ideal))
    (x2 : (⟨S2x100000, .i32⟩ : BufTy).Contents (Elt Ideal)) (x3 : (⟨S2x100000x3, .f32⟩ : BufTy).Contents (Elt Ideal))
    (x4 : (⟨S2x100000, .i1⟩ : BufTy).Contents (Elt Ideal)) (x5 : (⟨S2x100000, .i32⟩ : BufTy).Contents (Elt Ideal))
    (x6 : (⟨S64x3, .f32⟩ : BufTy).Contents (Elt Ideal)) (x7 x8 x9 x10 x11 : (⟨S64, .f32⟩ : BufTy).Contents (Elt Ideal)) :
    val_main_v87 (F := Ideal) x0 x1 x2 x3 x4 x5 x6 x7 x8 x9 x10 x11 = resultR x0 x1 x2 x3 x4 x5 x6 x7 x8 x9 x10 x11 := by
  funext i
  rw [eq_ix4 i]
  exact ref_apply x0 x1 x2 x3 x4 x5 x6 x7 x8 x9 x10 x11 (i 0) (i 1) (i 2) (i 3)

end Cert.ReferenceIdeal.RefValue

end
-- ==== Proof.KernelRow.lean ====
/-
  One batch-time row of the kernel body, read at an index, and the block the body leaves as one function of the four
  loaded blocks: entry `(bt, n, d)` is  max(Σₖ pc[bt, k, n]·wt[k, d] + bp[d], 0) · mask[bt, n].
-/
import proofs.«151703_j71313636983306_1_alg».proof.Proof.Gen.KernelIdeal.Frame
import proofs.«151703_j71313636983306_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen
open scoped BigOperators

/-! ## One batch-time row's arithmetic, read at an index -/

/-- The contraction of the row's matrix product: the point's row of `pcᵀ` against the weight's column. -/
theorem lhs_rowdot_0 (i : S4096x64.Idx) (q : dot_S4096x3_S3x64_S4096x64_1_0_0_1_n_n.contr.Idx) :
    (dot_S4096x3_S3x64_S4096x64_1_0_0_1_n_n.lhsIdx i q 0).val = (i 0).val := by
  unfold DotDims.lhsIdx
  rw [dif_neg (show ¬(0 : Fin S4096x3.rank) ∈ dot_S4096x3_S3x64_S4096x64_1_0_0_1_n_n.lhsBatch by decide), dif_pos (show (0 : Fin S4096x3.rank) ∈ dot_S4096x3_S3x64_S4096x64_1_0_0_1_n_n.lhsNonContracting by decide)]
  rfl
theorem lhs_rowdot_1 (i : S4096x64.Idx) (q : dot_S4096x3_S3x64_S4096x64_1_0_0_1_n_n.contr.Idx) :
    (dot_S4096x3_S3x64_S4096x64_1_0_0_1_n_n.lhsIdx i q 1).val = (q ⟨0, by decide⟩).val :=
  dot_S4096x3_S3x64_S4096x64_1_0_0_1_n_n.lhsIdx_val_of_single rfl i q
theorem rhs_rowdot_0 (i : S4096x64.Idx) (q : dot_S4096x3_S3x64_S4096x64_1_0_0_1_n_n.contr.Idx) :
    (dot_S4096x3_S3x64_S4096x64_1_0_0_1_n_n.rhsIdx i q 0).val = (q ⟨0, by decide⟩).val :=
  dot_S4096x3_S3x64_S4096x64_1_0_0_1_n_n.rhsIdx_val_of_single rfl i q
theorem rhs_rowdot_1 (i : S4096x64.Idx) (q : dot_S4096x3_S3x64_S4096x64_1_0_0_1_n_n.contr.Idx) :
    (dot_S4096x3_S3x64_S4096x64_1_0_0_1_n_n.rhsIdx i q 1).val = (i 1).val := by
  unfold DotDims.rhsIdx
  rw [dif_neg (show ¬(1 : Fin S3x64.rank) ∈ dot_S4096x3_S3x64_S4096x64_1_0_0_1_n_n.rhsBatch by decide), dif_pos (show (1 : Fin S3x64.rank) ∈ dot_S4096x3_S3x64_S4096x64_1_0_0_1_n_n.rhsNonContracting by decide)]
  rfl

/-- The matrix product into a zero accumulator, at `(n, d)`: the sum over the three coordinates. -/
theorem rowdot_apply (a : FVec Ideal S4096x3 .bf16) (w : FVec Ideal S3x64 .bf16) (n : Fin 4096) (d : Fin 64) :
    matmul dot_S4096x3_S3x64_S4096x64_1_0_0_1_n_n none a w (constant S4096x64 .f32 0x00000000#32) (ix2 n d)
      = ∑ k : Fin 3, a (ix2 n k) * w (ix2 k d) := by
  simp only [matmul]
  rw [Ideal.matmul_constant_zero_apply, ← Equiv.sum_comp (ValueIdx.contrEquiv1 dot_S4096x3_S3x64_S4096x64_1_0_0_1_n_n 3 rfl rfl).symm]
  refine Finset.sum_congr rfl fun k _ => ?_
  have hk := ValueIdx.contrEquiv1_symm_val dot_S4096x3_S3x64_S4096x64_1_0_0_1_n_n 3 rfl rfl k
  have el : dot_S4096x3_S3x64_S4096x64_1_0_0_1_n_n.lhsIdx (ix2 n d) ((ValueIdx.contrEquiv1 dot_S4096x3_S3x64_S4096x64_1_0_0_1_n_n 3 rfl rfl).symm k) = ix2 n k := funext fun b => Fin.ext (by
    match b with
    | ⟨0, _⟩ => exact lhs_rowdot_0 _ _
    | ⟨1, _⟩ => exact (lhs_rowdot_1 _ _).trans hk)
  have er : dot_S4096x3_S3x64_S4096x64_1_0_0_1_n_n.rhsIdx (ix2 n d) ((ValueIdx.contrEquiv1 dot_S4096x3_S3x64_S4096x64_1_0_0_1_n_n 3 rfl rfl).symm k) = ix2 k d := funext fun b => Fin.ext (by
    match b with
    | ⟨0, _⟩ => exact (rhs_rowdot_0 _ _).trans hk
    | ⟨1, _⟩ => exact rhs_rowdot_1 _ _)
  rw [el, er]

/-- One row's arithmetic on its loaded pieces: the weight `w` (already in the matrix unit's format) and bias `b`, the
    row's point coordinates `pc` `[1, 3, 4096]` and mask `mk` `[1, 4096]`. -/
def rowBody (w : FVec Ideal S3x64 .bf16) (b : FVec Ideal S64 .f32) (pc : Vec Ideal S1x3x4096 .f32) (mk : Vec Ideal S1x4096 .f32) :
    FVec Ideal S4096x64 .f32 :=
  mulf (maximumf (addf (matmul dot_S4096x3_S3x64_S4096x64_1_0_0_1_n_n none
        (transpose S4096x3 [1, 0] (truncf .bf16 (shapeCast S3x4096 pc shapeCasts_S1x3x4096_S3x4096) bitsLt_bf16_f32) transposes_S3x4096_p1_0_S4096x3)
        w (constant S4096x64 .f32 0x00000000#32))
      (broadcastTo S4096x64 (shapeCast S1x64 b shapeCasts_S64_S1x64) broadcasts_S1x64_S4096x64))
      (broadcast S4096x64 (Scalar.ofBits .f32 0x00000000#32)))
    (broadcastTo S4096x64 (shapeCast S4096x1 (shapeCast S4096 mk shapeCasts_S1x4096_S4096) shapeCasts_S4096_S4096x1) broadcasts_S4096x1_S4096x64)

/-- A column `[a, 1]` broadcast along rows reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- THE ROW AT `(n, d)`:  max(Σₖ pc[k, n]·w[k, d] + b[d], 0) · mk[n]. -/
theorem rowBody_apply (w : FVec Ideal S3x64 .bf16) (b : FVec Ideal S64 .f32) (pc : Vec Ideal S1x3x4096 .f32) (mk : Vec Ideal S1x4096 .f32)
    (n : Fin 4096) (d : Fin 64) :
    rowBody w b pc mk (ix2 n d)
      = max ((∑ k : Fin 3, pc (ix3 (0 : Fin 1) k n) * w (ix2 k d)) + b (ix1 d)) Cert.Spec.zeroW * mk (ix2 (0 : Fin 1) n) := by
  unfold rowBody
  rw [mulf_apply, maximumf_apply, addf_apply, broadcast_apply, rowdot_apply]
  have e1 : ∀ k : Fin 3, (transpose S4096x3 [1, 0] (truncf (F := Ideal) .bf16 (shapeCast S3x4096 pc shapeCasts_S1x3x4096_S3x4096) bitsLt_bf16_f32) transposes_S3x4096_p1_0_S4096x3 (ix2 n k) : EReal)
      = pc (ix3 (0 : Fin 1) k n) := fun k => by
    rw [transpose_ix2_apply, truncf_apply, shapeCast_1ab_ab_apply]
  have e2 : broadcastTo S4096x64 (shapeCast S1x64 b shapeCasts_S64_S1x64) broadcasts_S1x64_S4096x64 (ix2 n d) = b (ix1 d) := by
    rw [broadcastTo_1b_ab_apply, shapeCast_a_1a_apply]
  have e3 : broadcastTo S4096x64 (shapeCast S4096x1 (shapeCast S4096 mk shapeCasts_S1x4096_S4096) shapeCasts_S4096_S4096x1) broadcasts_S4096x1_S4096x64 (ix2 n d)
      = mk (ix2 (0 : Fin 1) n) := by
    rw [broadcastTo_a1_ab_apply, shapeCast_a_a1_apply, shapeCast_1a_a_apply]
  rw [e2, e3]
  simp only [e1]
  rfl

/-! ## The block the body leaves, as one function of the loaded blocks -/

/-- Entry `(bt, n, d)` of the output block from the four input blocks. -/
def blockOf (x0 : Vec Ideal S4x3x4096 .f32) (x1 : Vec Ideal S4x4096 .f32) (x2 : Vec Ideal S3x64 .f32) (x3 : Vec Ideal S64 .f32) :
    S4x4096x64.Idx → EReal := fun y =>
  max ((∑ k : Fin 3, x0 (ix3 (y 0) k (y 1)) * x2 (ix2 k (y 2))) + x3 (ix1 (y 2))) Cert.Spec.zeroW * x1 (ix2 (y 0) (y 1))

theorem hz2 : (![0, 0] : Fin 2 → Nat) = fun _ => 0 := funext fun a => by fin_cases a <;> rfl
theorem hz1 : (![0] : Fin 1 → Nat) = fun _ => 0 := funext fun a => by fin_cases a <;> rfl

/-- The weight as loaded and put in the matrix unit's format is the weight. -/
theorem pay2_apply (x2 : Vec Ideal S3x64 .f32) : k0_pay2 (View.ld x2 r0_0) = x2 := by
  unfold k0_pay2
  rw [View.ld_unit_zero (S := S3x64) hz2]
  funext i
  show (truncf (F := Ideal) .bf16 (shapeCast S3x64 x2 shapeCasts_S3x64_S3x64) bitsLt_bf16_f32 i : EReal) = x2 i
  rw [truncf_apply, shapeCast_self]

/-- The bias as loaded is the bias. -/
theorem pay3_apply (x3 : Vec Ideal S64 .f32) : k0_pay3 (View.ld x3 r0_1) = x3 := by
  unfold k0_pay3
  rw [View.ld_unit_zero (S := S64) hz1]
  exact shapeCast_self _ _

/-- Row `bt` of the block, with the row's pieces loaded through the unit rectangles at row `bt`. -/
theorem row_piece (bt : Fin 4) (x0 : Vec Ideal S4x3x4096 .f32) (x1 : Vec Ideal S4x4096 .f32) (x2 : Vec Ideal S3x64 .f32) (x3 : Vec Ideal S64 .f32)
    (pc : Vec Ideal S1x3x4096 .f32) (mk : Vec Ideal S1x4096 .f32)
    (hpc : ∀ (k : Fin 3) (n : Fin 4096), pc (ix3 (0 : Fin 1) k n) = x0 (ix3 bt k n))
    (hmk : ∀ n : Fin 4096, mk (ix2 (0 : Fin 1) n) = x1 (ix2 bt n))
    (u : Fin 1) (n : Fin 4096) (d : Fin 64) :
    shapeCast S1x4096x64 (rowBody x2 x3 pc mk) shapeCasts_S4096x64_S1x4096x64 (ix3 u n d) = blockOf x0 x1 x2 x3 (ix3 bt n d) := by
  rw [shapeCast_ab_1ab_apply, rowBody_apply]
  unfold blockOf
  simp only [hpc, hmk]

end Cert.KernelIdeal.KVal

end
-- ==== Proof.KernelBlocks.lean ====
/-
  What the region leaves in its output array, as one function of the four arrays it reads.

  The output `[4, 102400, 64]` is written in 25 blocks of 4096 points; inside a block the body treats the four
  batch-time rows one after the other, each as  max(pcᵀ·wt + bp, 0) · mask  over that row's 4096 points: entry
  `(bt, n, d)` is  max(Σₖ pc[bt, k, n]·wt[k, d] + bp[d], 0) · mask[bt, n].  Every block is that one function of the
  whole arrays restricted to the block, and the 25 blocks tile the array.
-/
import proofs.«151703_j71313636983306_1_alg».proof.Proof.KernelRow

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ)

/-- Entry `(bt, n, d)` of the region's output from the padded, feature-major point cloud `xp`, the padded mask `mp`,
    the folded weight `wt` and the folded bias `bp`. -/
def embPad (xp : S4x3x102400.Idx → EReal) (mp : S4x102400.Idx → EReal) (wt : S3x64.Idx → EReal) (bp : S64.Idx → EReal) :
    S4x102400x64.Idx → EReal := fun i =>
  max ((∑ k : Fin 3, xp (ix3 (i 0) k (i 1)) * wt (ix2 k (i 2))) + bp (ix1 (i 2))) Cert.Spec.zeroW * mp (ix2 (i 0) (i 1))

/-! ## The four stored pieces are one block -/

/-- Row `bt`'s point coordinates, loaded through the unit rectangle at row `bt`, are the block's row `bt`. -/
theorem ld_pc (bt : Fin 4) (x0 : Vec Ideal S4x3x4096 .f32)
    (inb : ∀ a, (![bt.val, 0, 0] : Fin 3 → Nat) a + S1x3x4096.size a ≤ S4x3x4096.size a) (k : Fin 3) (n : Fin 4096) :
    View.ld x0 (Rect.unit (s := S4x3x4096) ![bt.val, 0, 0] S1x3x4096.size inb) (ix3 (0 : Fin 1) k n) = x0 (ix3 bt k n) := by
  show x0 _ = x0 _
  refine congrArg x0 (funext fun a => Fin.ext ?_)
  match a with
  | ⟨0, _⟩ => show bt.val + 1 * 0 = bt.val; omega
  | ⟨1, _⟩ => show 0 + 1 * k.val = k.val; omega
  | ⟨2, _⟩ => show 0 + 1 * n.val = n.val; omega

/-- Row `bt`'s mask, loaded through the unit rectangle at row `bt`, is the block's row `bt`. -/
theorem ld_mk (bt : Fin 4) (x1 : Vec Ideal S4x4096 .f32)
    (inb : ∀ a, (![bt.val, 0] : Fin 2 → Nat) a + S1x4096.size a ≤ S4x4096.size a) (n : Fin 4096) :
    View.ld x1 (Rect.unit (s := S4x4096) ![bt.val, 0] S1x4096.size inb) (ix2 (0 : Fin 1) n) = x1 (ix2 bt n) := by
  show x1 _ = x1 _
  refine congrArg x1 (funext fun a => Fin.ext ?_)
  match a with
  | ⟨0, _⟩ => show bt.val + 1 * 0 = bt.val; omega
  | ⟨1, _⟩ => show 0 + 1 * n.val = n.val; omega

/-- The piece stored at row `bt` is the block function on that row. -/
theorem piece_eq (bt : Fin 4) (x0 : Vec Ideal S4x3x4096 .f32) (x1 : Vec Ideal S4x4096 .f32) (x2 : Vec Ideal S3x64 .f32) (x3 : Vec Ideal S64 .f32)
    (inb : ∀ a, (![bt.val, 0, 0] : Fin 3 → Nat) a + S1x4096x64.size a ≤ S4x4096x64.size a)
    (pc : Vec Ideal S1x3x4096 .f32) (mk : Vec Ideal S1x4096 .f32)
    (hpc : ∀ (k : Fin 3) (n : Fin 4096), pc (ix3 (0 : Fin 1) k n) = x0 (ix3 bt k n))
    (hmk : ∀ n : Fin 4096, mk (ix2 (0 : Fin 1) n) = x1 (ix2 bt n))
    (x : S1x4096x64.Idx) :
    shapeCast S1x4096x64 (rowBody (k0_pay2 (View.ld x2 r0_0)) (k0_pay3 (View.ld x3 r0_1)) pc mk) shapeCasts_S4096x64_S1x4096x64 x
      = blockOf x0 x1 x2 x3 ((Rect.unit (s := S4x4096x64) ![bt.val, 0, 0] S1x4096x64.size inb).emb x) := by
  obtain ⟨u, n, d, rfl⟩ : ∃ (u : Fin 1) (n : Fin 4096) (d : Fin 64), x = ix3 u n d := ⟨x 0, x 1, x 2, eq_ix3 x⟩
  rw [pay2_apply, pay3_apply, row_piece bt x0 x1 x2 x3 pc mk hpc hmk u n d]
  refine congrArg (blockOf x0 x1 x2 x3) (funext fun a => Fin.ext ?_)
  match a with
  | ⟨0, _⟩ => show bt.val = bt.val + 1 * u.val; have := u.isLt; omega
  | ⟨1, _⟩ => show n.val = 0 + 1 * n.val; omega
  | ⟨2, _⟩ => show d.val = 0 + 1 * d.val; omega

/-- WHAT THE BODY LEAVES in the output's staging buffer is the block function of the four input blocks. -/
theorem out0_4_eq (x0 : Vec Ideal S4x3x4096 .f32) (x1 : Vec Ideal S4x4096 .f32) (x2 : Vec Ideal S3x64 .f32) (x3 : Vec Ideal S64 .f32) :
    out0_4 x0 x1 x2 x3 = blockOf x0 x1 x2 x3 := by
  funext y
  unfold out0_4
  refine View.canon_apply_of_pieces (Val := Elt Ideal) (blockOf x0 x1 x2 x3) _ ?_ y (cover0_4 _ _ _ _ y)
  intro p hp
  simp only [List.mem_cons, List.not_mem_nil, or_false] at hp
  rcases hp with rfl | rfl | rfl | rfl
  · exact fun x => piece_eq 3 x0 x1 x2 x3 inb_S4x4096x64_S1x4096x64_3_0_0 (View.ld x0 r0_11) (View.ld x1 r0_12)
      (fun k n => ld_pc 3 x0 inb_S4x3x4096_S1x3x4096_3_0_0 k n) (fun n => ld_mk 3 x1 inb_S4x4096_S1x4096_3_0 n) x
  · exact fun x => piece_eq 2 x0 x1 x2 x3 inb_S4x4096x64_S1x4096x64_2_0_0 (View.ld x0 r0_8) (View.ld x1 r0_9)
      (fun k n => ld_pc 2 x0 inb_S4x3x4096_S1x3x4096_2_0_0 k n) (fun n => ld_mk 2 x1 inb_S4x4096_S1x4096_2_0 n) x
  · exact fun x => piece_eq 1 x0 x1 x2 x3 inb_S4x4096x64_S1x4096x64_1_0_0 (View.ld x0 r0_5) (View.ld x1 r0_6)
      (fun k n => ld_pc 1 x0 inb_S4x3x4096_S1x3x4096_1_0_0 k n) (fun n => ld_mk 1 x1 inb_S4x4096_S1x4096_1_0 n) x
  · exact fun x => piece_eq 0 x0 x1 x2 x3 inb_S4x4096x64_S1x4096x64_0_0_0 (View.ld x0 r0_2) (View.ld x1 r0_3)
      (fun k n => ld_pc 0 x0 inb_S4x3x4096_S1x3x4096_0_0_0 k n) (fun n => ld_mk 0 x1 inb_S4x4096_S1x4096_0_0 n) x

/-! ## A block of the whole arrays -/

/-- The block function of the blocks of four whole arrays at point `tt` (points `tt·4096 …` of the padded axis) is
    `embPad` of the whole arrays at the block's place. -/
theorem blockOf_read (X0 : S4x3x102400.Idx → EReal) (X1 : S4x102400.Idx → EReal) (X2 : S3x64.Idx → EReal) (X3 : S64.Idx → EReal)
    (x0 : Vec Ideal S4x3x4096 .f32) (x1 : Vec Ideal S4x4096 .f32) (x2 : Vec Ideal S3x64 .f32) (x3 : Vec Ideal S64 .f32)
    (tt : ℕ) (htt : tt < 25)
    (h0 : ∀ (bt : Fin 4) (k : Fin 3) (n : Fin 4096), x0 (ix3 bt k n) = X0 (ix3 bt k ⟨tt * 4096 + n.val, by have := n.isLt; omega⟩))
    (h1 : ∀ (bt : Fin 4) (n : Fin 4096), x1 (ix2 bt n) = X1 (ix2 bt ⟨tt * 4096 + n.val, by have := n.isLt; omega⟩))
    (h2 : ∀ (k : Fin 3) (d : Fin 64), x2 (ix2 k d) = X2 (ix2 k d)) (h3 : ∀ d : Fin 64, x3 (ix1 d) = X3 (ix1 d))
    (y : S4x4096x64.Idx) :
    blockOf x0 x1 x2 x3 y
      = embPad X0 X1 X2 X3 (ix3 (y 0) ⟨tt * 4096 + (y 1).val, by have h : (y 1).val < 4096 := (y 1).isLt; omega⟩ (y 2)) := by
  have e0 : ∀ k : Fin 3, x0 (ix3 (y 0) k (y 1))
      = X0 (ix3 (y 0) k ⟨tt * 4096 + (y 1).val, by have h : (y 1).val < 4096 := (y 1).isLt; omega⟩) := fun k => h0 (y 0) k (y 1)
  have e1 := h1 (y 0) (y 1)
  have e2 : ∀ k : Fin 3, x2 (ix2 k (y 2)) = X2 (ix2 k (y 2)) := fun k => h2 k (y 2)
  have e3 := h3 (y 2)
  show max ((∑ k : Fin 3, x0 (ix3 (y 0) k (y 1)) * x2 (ix2 k (y 2))) + x3 (ix1 (y 2))) Cert.Spec.zeroW * x1 (ix2 (y 0) (y 1))
    = max ((∑ k : Fin 3, X0 (ix3 (y 0) k ⟨tt * 4096 + (y 1).val, _⟩) * X2 (ix2 k (y 2))) + X3 (ix1 (y 2))) Cert.Spec.zeroW
        * X1 (ix2 (y 0) ⟨tt * 4096 + (y 1).val, _⟩)
  rw [e1, e3]
  simp only [e0, e2]

/-! ## What a point writes back, and the whole array -/

/-- The four arrays the region reads, as it finds them, at their literal types. -/
abbrev xp (c : Dev nD) : S4x3x102400.Idx → EReal := V m c main_v13
abbrev mp (c : Dev nD) : S4x102400.Idx → EReal := V m c main_v15
abbrev wt (c : Dev nD) : S3x64.Idx → EReal := V m c main_v25
abbrev bp (c : Dev nD) : S64.Idx → EReal := V m c main_v27

/-- The printed index maps, decided over the grid: at point `t` the point-cloud, mask and output blocks are the
    `t`-th along the point axis; weight and bias are whole. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = t.val ∧ win0_4.index t (2 : Fin 3) = 0 :=
  (by decide +kernel : ∀ t : Fin grid0.N, _)

/-- WHAT POINT `t` WRITES BACK is block `t` of `embPad` of the four arrays as the region finds them. -/
theorem flushed4_eq (c : Dev nD) (t : Fin cfg0.N) :
    (dats (F := Ideal) m 0 c).flushed 4 t
      = ((cfg0.win 4).blk t).view.read (Elt Ideal) (embPad (xp m c) (mp m c) (wt m c) (bp m c)) := by
  show (cfg0.win 4).cut (grid0.coords t) ((dats m 0 c).after 4 t) = _
  rw [after0_4, out0_4_eq]
  obtain ⟨e00, e01, e02, e10, e11, e20, e21, e30, e40, e41, e42⟩ := idx_facts t
  have ht : t.val < 25 := t.isLt
  have h0 : ∀ (bt : Fin 4) (k : Fin 3) (n : Fin 4096),
      iblk m c 0 t (ix3 bt k n) = xp m c (ix3 bt k ⟨t.val * 4096 + n.val, by have := n.isLt; omega⟩) := fun bt k n => by
    unfold iblk
    show xp m c (((cfg0.win 0).blk t).view.emb (ix3 bt k n)) = _
    refine congrArg (xp m c) (funext fun a => Fin.ext ?_)
    match a with
    | ⟨0, _⟩ => show win0_0.index t (0 : Fin 3) * 4 + 1 * bt.val = bt.val; omega
    | ⟨1, _⟩ => show win0_0.index t (1 : Fin 3) * 3 + 1 * k.val = k.val; omega
    | ⟨2, _⟩ => show win0_0.index t (2 : Fin 3) * 4096 + 1 * n.val = t.val * 4096 + n.val; omega
  have h1 : ∀ (bt : Fin 4) (n : Fin 4096),
      iblk m c 1 t (ix2 bt n) = mp m c (ix2 bt ⟨t.val * 4096 + n.val, by have := n.isLt; omega⟩) := fun bt n => by
    unfold iblk
    show mp m c (((cfg0.win 1).blk t).view.emb (ix2 bt n)) = _
    refine congrArg (mp m c) (funext fun a => Fin.ext ?_)
    match a with
    | ⟨0, _⟩ => show win0_1.index t (0 : Fin 2) * 4 + 1 * bt.val = bt.val; omega
    | ⟨1, _⟩ => show win0_1.index t (1 : Fin 2) * 4096 + 1 * n.val = t.val * 4096 + n.val; omega
  have h2 : ∀ (k : Fin 3) (d : Fin 64), iblk m c 2 t (ix2 k d) = wt m c (ix2 k d) := fun k d => by
    unfold iblk
    show wt m c (((cfg0.win 2).blk t).view.emb (ix2 k d)) = _
    refine congrArg (wt m c) (funext fun a => Fin.ext ?_)
    match a with
    | ⟨0, _⟩ => show win0_2.index t (0 : Fin 2) * 3 + 1 * k.val = k.val; omega
    | ⟨1, _⟩ => show win0_2.index t (1 : Fin 2) * 64 + 1 * d.val = d.val; omega
  have h3 : ∀ d : Fin 64, iblk m c 3 t (ix1 d) = bp m c (ix1 d) := fun d => by
    unfold iblk
    show bp m c (((cfg0.win 3).blk t).view.emb (ix1 d)) = _
    refine congrArg (bp m c) (funext fun a => Fin.ext ?_)
    match a with
    | ⟨0, _⟩ => show win0_3.index t (0 : Fin 1) * 64 + 1 * d.val = d.val; omega
  funext j
  show blockOf (iblk m c 0 t) (iblk m c 1 t) (iblk m c 2 t) (iblk m c 3 t) j
    = embPad (xp m c) (mp m c) (wt m c) (bp m c) (((cfg0.win 4).blk t).view.emb j)
  refine (blockOf_read (xp m c) (mp m c) (wt m c) (bp m c) (iblk m c 0 t) (iblk m c 1 t) (iblk m c 2 t) (iblk m c 3 t)
    t.val ht h0 h1 h2 h3 j).trans ?_
  refine congrArg (embPad (xp m c) (mp m c) (wt m c) (bp m c)) (funext fun a => Fin.ext ?_)
  match a with
  | ⟨0, _⟩ => show (j 0).val = win0_4.index t (0 : Fin 3) * 4 + 1 * (j 0).val; omega
  | ⟨1, _⟩ => show t.val * 4096 + (j 1).val = win0_4.index t (1 : Fin 3) * 4096 + 1 * (j 1).val; omega
  | ⟨2, _⟩ => show (j 2).val = win0_4.index t (2 : Fin 3) * 64 + 1 * (j 2).val; omega

/-- An index of the output array is in point `t`'s block iff each coordinate is in the block's range on its axis. -/
theorem mem_blk4 (t : Fin cfg0.N) (i : S4x102400x64.Idx) :
    i ∈ ((cfg0.win 4).blk t).view.set ↔ ∀ a : Fin 3, win0_4.index t a * S4x4096x64.size a ≤ (i a).val
      ∧ (i a).val < win0_4.index t a * S4x4096x64.size a + S4x4096x64.size a := by
  show i ∈ ((View.whole main_v28).slice (win0_4.rect t)).set ↔ _
  rw [View.set_slice_whole, Rect.mem_set_unit]
  exact Iff.rfl

/-- Every index of the output array is in the block of the point its point coordinate falls in. -/
theorem cover4 (i : S4x102400x64.Idx) :
    ∃ t : Fin cfg0.N, (cfg0.win 4).flush t = true ∧ i ∈ ((cfg0.win 4).blk t).view.set := by
  have hi0 : (i 0).val < 4 := (i 0).isLt
  have hi1 : (i 1).val < 102400 := (i 1).isLt
  have hi2 : (i 2).val < 64 := (i 2).isLt
  have hlt : (i 1).val / 4096 < 25 := by omega
  refine ⟨⟨(i 1).val / 4096, hlt⟩, flush0_4 _, ?_⟩
  rw [mem_blk4]
  obtain ⟨-, -, -, -, -, -, -, -, e40, e41, e42⟩ := idx_facts ⟨(i 1).val / 4096, hlt⟩
  have e41' : win0_4.index ⟨(i 1).val / 4096, hlt⟩ (1 : Fin 3) = (i 1).val / 4096 := e41
  intro a
  match a with
  | ⟨0, _⟩ =>
    show win0_4.index ⟨(i 1).val / 4096, hlt⟩ (0 : Fin 3) * 4 ≤ (i 0).val
      ∧ (i 0).val < win0_4.index ⟨(i 1).val / 4096, hlt⟩ (0 : Fin 3) * 4 + 4
    omega
  | ⟨1, _⟩ =>
    show win0_4.index ⟨(i 1).val / 4096, hlt⟩ (1 : Fin 3) * 4096 ≤ (i 1).val
      ∧ (i 1).val < win0_4.index ⟨(i 1).val / 4096, hlt⟩ (1 : Fin 3) * 4096 + 4096
    omega
  | ⟨2, _⟩ =>
    show win0_4.index ⟨(i 1).val / 4096, hlt⟩ (2 : Fin 3) * 64 ≤ (i 2).val
      ∧ (i 2).val < win0_4.index ⟨(i 1).val / 4096, hlt⟩ (2 : Fin 3) * 64 + 64
    omega

/-- THE OUTPUT ARRAY after the region: `embPad` of the four arrays as the region finds them. -/
theorem final4 (c : Dev nD) :
    (dats (F := Ideal) m 0 c).arrAt 4 cfg0.N
      = embPad (V m c main_v13) (V m c main_v15) (V m c main_v25) (V m c main_v27) :=
  (dats (F := Ideal) m 0 c).arrAt_eq_of_cover 4 (embPad (xp m c) (mp m c) (wt m c) (bp m c))
    (fun t _ => flushed4_eq m c t) (cover4)

end Cert.KernelIdeal.KVal

end
-- ==== Proof.KernelHost.lean ====
/-
  The four arrays the region reads, as the host operations before it leave them, read at an index.

  The point clouds of the two sweeps are joined on a new axis next to the batch axis and flattened with it (row
  `bt = 2·b + t`), transposed to feature-major and padded with zeros from 100000 to 102400 points; the masks likewise,
  converted to 0/1 numbers before the padding. The folded weight is `W[d, k]·s[d]` laid out `[k, d]`, the folded bias
  `b[d]·s[d] + (β[d] − μ[d]·s[d])`, with `s = γ/√(σ² + ε)`.
-/
import proofs.«151703_j71313636983306_1_alg».proof.Proof.Gen.KernelIdeal.Frame
import proofs.«151703_j71313636983306_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.KHost

open Idealize.ShloMosaic Idealize.ShloMosaic.TcCoe Idealize.ShloMosaic.ValueIdx Idealize.SL.Sem
open Cert.KernelIdeal Cert.KernelIdeal.Gen Cert.Spec
open scoped BigOperators

variable (m : (ℓ : Loc nD τ sig) → Buf (Elt Ideal) ℓ)

/-- The argument arrays at their literal types (the memory's buffers are typed through the signature). -/
abbrev a0 (c : Dev nD) : Spcl.Idx → EReal := m ((c : Thread nD τ).loc main_arg0)
abbrev a1 (c : Dev nD) : IVec Spt 1 := m ((c : Thread nD τ).loc main_arg1)
abbrev a2 (c : Dev nD) : IVec Spt 32 := m ((c : Thread nD τ).loc main_arg2)
abbrev a3 (c : Dev nD) : Spcl.Idx → EReal := m ((c : Thread nD τ).loc main_arg3)
abbrev a4 (c : Dev nD) : IVec Spt 1 := m ((c : Thread nD τ).loc main_arg4)
abbrev a5 (c : Dev nD) : IVec Spt 32 := m ((c : Thread nD τ).loc main_arg5)
abbrev a6 (c : Dev nD) : Swt.Idx → EReal := m ((c : Thread nD τ).loc main_arg6)
abbrev a7 (c : Dev nD) : Sch.Idx → EReal := m ((c : Thread nD τ).loc main_arg7)
abbrev a8 (c : Dev nD) : Sch.Idx → EReal := m ((c : Thread nD τ).loc main_arg8)
abbrev a9 (c : Dev nD) : Sch.Idx → EReal := m ((c : Thread nD τ).loc main_arg9)
abbrev a10 (c : Dev nD) : Sch.Idx → EReal := m ((c : Thread nD τ).loc main_arg10)
abbrev a11 (c : Dev nD) : Sch.Idx → EReal := m ((c : Thread nD τ).loc main_arg11)

/-- The normalisation's scale vector `γ/√(σ² + ε)` as the operations compute it. -/
abbrev sVec (c : Dev nD) : FVec Ideal S64 .f32 :=
  Host.divf (F := Ideal) (φ := .f32) (a8 m c)
    (Host.sqrt (F := Ideal) (φ := .f32)
      (addf (F := Ideal) (φ := .f32) (a11 m c) (broadcastInDim S64 ![] bcast_S_S64 (constant (F := Ideal) S_ .f32 0x3727C5AC#32))))

/-- Its entry is the specification's `scale`. -/
theorem sVec_apply (c : Dev nD) (d : Fin 64) : sVec m c (ix1 d) = scale (a8 m c (ix1 d)) (a11 m c (ix1 d)) := rfl

/-- The folded bias as the operations' composed term. -/
theorem V_v27_eq (c : Dev nD) : (V m c main_v27 : FVec Ideal S64 .f32)
    = addf (F := Ideal) (φ := .f32) (mulf (F := Ideal) (φ := .f32) (a7 m c) (sVec m c))
        (subf (F := Ideal) (φ := .f32) (a9 m c) (mulf (F := Ideal) (φ := .f32) (a10 m c) (sVec m c))) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp

/-- The folded weight as the operations' composed term. -/
theorem V_v25_eq (c : Dev nD) : (V m c main_v25 : FVec Ideal S3x64 .f32)
    = transpose S3x64 [1, 0]
        (mulf (F := Ideal) (φ := .f32) (a6 m c)
          (broadcastInDim S64x3 ![0, 1] bcast_S64x1_S64x3_0_1 (broadcastInDim S64x1 ![0] bcast_S64_S64x1_0 (sVec m c))))
        transposes_S64x3_S3x64_1_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp

/-! ## The two sweeps stacked -/

section Stack
variable {α : Type}

/-- Two per-point arrays `[2, N]` joined on a new axis next to the batch axis and flattened with it to `[4, N]`. -/
abbrev stackPt (x y : S2x100000.Idx → α) : S4x100000.Idx → α :=
  shapeCast S4x100000
    (concatenate S2x2x100000 1
      [⟨S2x1x100000, broadcastInDim S2x1x100000 ![0, 2] bcast_S2x100000_S2x1x100000_0_2 x⟩,
        ⟨S2x1x100000, broadcastInDim S2x1x100000 ![0, 2] bcast_S2x100000_S2x1x100000_0_2 y⟩]
      concatenates_S2x1x100000_S2x1x100000_S2x2x100000_d1)
    shapeCasts_S2x2x100000_S4x100000

/-- Row `bt = 2·b + t` of the stack is batch `b` of the first array for `t = 0`, of the second for `t = 1`. -/
theorem stackPt_apply (x y : S2x100000.Idx → α) (bt : Fin 4) (n : Fin 100000) :
    stackPt x y (ix2 bt n) = rowSel bt x y (ix2 (bOf bt) n) := by
  have ht : bt.val % 2 < 2 := Nat.mod_lt _ (by decide)
  have hbt := bt.isLt
  -- the flattening: position `bt·N + n` is `((bt / 2)·2 + bt % 2)·N + n`
  refine (shapeCast_apply _ shapeCasts_S2x2x100000_S4x100000 (ix2 bt n) (ix3 (bOf bt) ⟨bt.val % 2, ht⟩ n) ?_).trans ?_
  · rw [Shape.rowMajor_val_three, Shape.rowMajor_val_two]
    show ((bt.val / 2) * 2 + bt.val % 2) * 100000 + n.val = bt.val * 100000 + n.val
    omega
  -- the join: coordinate `bt % 2` on the new axis chooses the piece; each piece is its array with a unit axis
  have hbc : ∀ z : S2x100000.Idx → α,
      broadcastInDim S2x1x100000 ![0, 2] bcast_S2x100000_S2x1x100000_0_2 z (ix3 (bOf bt) (0 : Fin 1) n) = z (ix2 (bOf bt) n) :=
    fun z => broadcastInDim_apply _ bcast_S2x100000_S2x1x100000_0_2 z (ix3 (bOf bt) (0 : Fin 1) n) (ix2 (bOf bt) n) (fun a => match a with
      | ⟨0, _⟩ => by show (bOf bt).val = if (2 : Nat) = 1 then 0 else (bOf bt).val; rw [if_neg (by decide)]
      | ⟨1, _⟩ => by show n.val = if (100000 : Nat) = 1 then 0 else n.val; rw [if_neg (by decide)])
  unfold rowSel
  by_cases h : bt.val % 2 = 0
  · rw [if_pos h]
    refine (concatenate_pair_apply_left _ _ _ concatenates_S2x1x100000_S2x1x100000_S2x2x100000_d1 _ rfl
      (ix3 (bOf bt) (0 : Fin 1) n) (fun b => match b with
        | ⟨0, _⟩ => rfl
        | ⟨1, _⟩ => by show 0 = bt.val % 2; omega
        | ⟨2, _⟩ => rfl)).trans ?_
    exact hbc x
  · rw [if_neg h]
    refine (concatenate_pair_apply_right _ _ _ concatenates_S2x1x100000_S2x1x100000_S2x2x100000_d1 _ rfl rfl
      (ix3 (bOf bt) (0 : Fin 1) n) (fun b hb => match b, hb with
        | ⟨0, _⟩, _ => rfl
        | ⟨1, _⟩, hb => absurd rfl hb
        | ⟨2, _⟩, _ => rfl) (by show 0 + 1 = bt.val % 2; omega)).trans ?_
    exact hbc y

/-- Two point clouds `[2, N, 3]` joined on a new axis next to the batch axis and flattened with it to `[4, N, 3]`. -/
abbrev stackCl (x y : S2x100000x3.Idx → α) : S4x100000x3.Idx → α :=
  shapeCast S4x100000x3
    (concatenate S2x2x100000x3 1
      [⟨S2x1x100000x3, broadcastInDim S2x1x100000x3 ![0, 2, 3] bcast_S2x100000x3_S2x1x100000x3_0_2_3 x⟩,
        ⟨S2x1x100000x3, broadcastInDim S2x1x100000x3 ![0, 2, 3] bcast_S2x100000x3_S2x1x100000x3_0_2_3 y⟩]
      concatenates_S2x1x100000x3_S2x1x100000x3_S2x2x100000x3_d1)
    shapeCasts_S2x2x100000x3_S4x100000x3

/-- Row `bt = 2·b + t` of the stacked clouds is batch `b` of the first cloud for `t = 0`, of the second for `t = 1`. -/
theorem stackCl_apply (x y : S2x100000x3.Idx → α) (bt : Fin 4) (n : Fin 100000) (k : Fin 3) :
    stackCl x y (ix3 bt n k) = rowSel bt x y (ix3 (bOf bt) n k) := by
  have ht : bt.val % 2 < 2 := Nat.mod_lt _ (by decide)
  have hbt := bt.isLt
  refine (shapeCast_apply _ shapeCasts_S2x2x100000x3_S4x100000x3 (ix3 bt n k) (ix4 (bOf bt) ⟨bt.val % 2, ht⟩ n k) ?_).trans ?_
  · rw [Shape.rowMajor_val_four, Shape.rowMajor_val_three]
    show (((bt.val / 2) * 2 + bt.val % 2) * 100000 + n.val) * 3 + k.val = (bt.val * 100000 + n.val) * 3 + k.val
    omega
  have hbc : ∀ z : S2x100000x3.Idx → α,
      broadcastInDim S2x1x100000x3 ![0, 2, 3] bcast_S2x100000x3_S2x1x100000x3_0_2_3 z (ix4 (bOf bt) (0 : Fin 1) n k) = z (ix3 (bOf bt) n k) :=
    fun z => broadcastInDim_apply _ bcast_S2x100000x3_S2x1x100000x3_0_2_3 z (ix4 (bOf bt) (0 : Fin 1) n k) (ix3 (bOf bt) n k) (fun a => match a with
      | ⟨0, _⟩ => by show (bOf bt).val = if (2 : Nat) = 1 then 0 else (bOf bt).val; rw [if_neg (by decide)]
      | ⟨1, _⟩ => by show n.val = if (100000 : Nat) = 1 then 0 else n.val; rw [if_neg (by decide)]
      | ⟨2, _⟩ => by show k.val = if (3 : Nat) = 1 then 0 else k.val; rw [if_neg (by decide)])
  unfold rowSel
  by_cases h : bt.val % 2 = 0
  · rw [if_pos h]
    refine (concatenate_pair_apply_left _ _ _ concatenates_S2x1x100000x3_S2x1x100000x3_S2x2x100000x3_d1 _ rfl
      (ix4 (bOf bt) (0 : Fin 1) n k) (fun b => match b with
        | ⟨0, _⟩ => rfl
        | ⟨1, _⟩ => by show 0 = bt.val % 2; omega
        | ⟨2, _⟩ => rfl
        | ⟨3, _⟩ => rfl)).trans ?_
    exact hbc x
  · rw [if_neg h]
    refine (concatenate_pair_apply_right _ _ _ concatenates_S2x1x100000x3_S2x1x100000x3_S2x2x100000x3_d1 _ rfl rfl
      (ix4 (bOf bt) (0 : Fin 1) n k) (fun b hb => match b, hb with
        | ⟨0, _⟩, _ => rfl
        | ⟨1, _⟩, hb => absurd rfl hb
        | ⟨2, _⟩, _ => rfl
        | ⟨3, _⟩, _ => rfl) (by show 0 + 1 = bt.val % 2; omega)).trans ?_
    exact hbc y

end Stack

/-- The padded feature-major cloud as the operations' composed term. -/
theorem V_v13_eq (c : Dev nD) : (V m c main_v13 : FVec Ideal S4x3x102400 .f32)
    = pad S4x3x102400 ![0, 0, 0] ![0, 0, 2400] ![0, 0, 0]
        (transpose S4x3x100000 [0, 2, 1] (stackCl (a0 m c) (a3 m c)) transposes_S4x100000x3_S4x3x100000_0_2_1)
        (sitofp (F := Ideal) .f32 (constantI S_ 32 0#32)) pads_S4x3x100000_S4x3x102400_000_000_024000 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  repeat (first
    | rw [StableHlo.unary_result] | rw [StableHlo.binary_result] | rw [StableHlo.reshape_result] | rw [StableHlo.nullary_result]
    | (rw [StableHlo.unary_result_ne]; rotate_left; decide)
    | (rw [StableHlo.binary_result_ne]; rotate_left; decide)
    | (rw [StableHlo.reshape_result_ne]; rotate_left; decide)
    | (rw [StableHlo.nullary_result_ne]; rotate_left; decide))
  rfl

/-- The padded mask as the operations' composed term: the stacked mask bits as numbers, zero-padded on the point axis. -/
theorem V_v15_eq (c : Dev nD) : (V m c main_v15 : FVec Ideal S4x102400 .f32)
    = pad S4x102400 ![0, 0] ![0, 2400] ![0, 0] (uitofp (F := Ideal) .f32 (stackPt (a1 m c) (a4 m c)))
        (sitofp (F := Ideal) .f32 (constantI S_ 32 0#32)) pads_S4x100000_S4x102400_000_024000 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  repeat (first
    | rw [StableHlo.unary_result] | rw [StableHlo.binary_result] | rw [StableHlo.reshape_result] | rw [StableHlo.nullary_result]
    | (rw [StableHlo.unary_result_ne]; rotate_left; decide)
    | (rw [StableHlo.binary_result_ne]; rotate_left; decide)
    | (rw [StableHlo.reshape_result_ne]; rotate_left; decide)
    | (rw [StableHlo.nullary_result_ne]; rotate_left; decide))
  rfl

/-- The stacked grid indices as the operations' composed term. -/
theorem V_v11_eq (c : Dev nD) : (V m c main_v11 : IVec S4x100000 32) = stackPt (a2 m c) (a5 m c) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  repeat (first
    | rw [StableHlo.unary_result] | rw [StableHlo.binary_result] | rw [StableHlo.reshape_result] | rw [StableHlo.nullary_result]
    | (rw [StableHlo.unary_result_ne]; rotate_left; decide)
    | (rw [StableHlo.binary_result_ne]; rotate_left; decide)
    | (rw [StableHlo.reshape_result_ne]; rotate_left; decide)
    | (rw [StableHlo.nullary_result_ne]; rotate_left; decide))
  rfl

/-- The padded feature-major point cloud at a real point: row `bt`'s sweep, batch `bt / 2`, point `n`, coordinate `k`. -/
theorem V_v13_apply (c : Dev nD) (bt : Fin 4) (k : Fin 3) (n : Fin 102400) (hn : n.val < 100000) :
    V m c main_v13 (ix3 bt k n) = rowSel bt (a0 m c) (a3 m c) (ix3 (bOf bt) ⟨n.val, hn⟩ k) := by
  refine (congrFun (V_v13_eq m c) (ix3 bt k n)).trans ?_
  -- a real point lies inside the operand of the padding
  refine (pad_apply_of_inside _ _ _ _ _ pads_S4x3x100000_S4x3x102400_000_000_024000 h_S_ (ix3 bt k n) (ix3 bt k ⟨n.val, hn⟩) (fun a => match a with
    | ⟨0, _⟩ => by show bt.val = 0 + bt.val * (0 + 1); omega
    | ⟨1, _⟩ => by show k.val = 0 + k.val * (0 + 1); omega
    | ⟨2, _⟩ => by show n.val = 0 + n.val * (0 + 1); omega)).trans ?_
  -- the transpose exchanges the point and the coordinate
  refine (transpose_ix3_021_apply _ transposes_S4x100000x3_S4x3x100000_0_2_1 bt k ⟨n.val, hn⟩).trans ?_
  exact stackCl_apply (a0 m c) (a3 m c) bt ⟨n.val, hn⟩ k

/-- The padded mask at a real point: row `bt`'s sweep's mask bit as the number 0 or 1. -/
theorem V_v15_apply (c : Dev nD) (bt : Fin 4) (n : Fin 102400) (hn : n.val < 100000) :
    V m c main_v15 (ix2 bt n) = (((rowSel bt (a1 m c) (a4 m c) (ix2 (bOf bt) ⟨n.val, hn⟩)).toNat : ℝ) : EReal) := by
  refine (congrFun (V_v15_eq m c) (ix2 bt n)).trans ?_
  -- a real point lies inside the operand of the padding
  refine (pad_apply_of_inside _ _ _ _ _ pads_S4x100000_S4x102400_000_024000 h_S_ (ix2 bt n) (ix2 bt ⟨n.val, hn⟩) (fun a => match a with
    | ⟨0, _⟩ => by show bt.val = 0 + bt.val * (0 + 1); omega
    | ⟨1, _⟩ => by show n.val = 0 + n.val * (0 + 1); omega)).trans ?_
  exact congrArg (fun b : BitVec 1 => ((b.toNat : ℝ) : EReal)) (stackPt_apply (a1 m c) (a4 m c) bt ⟨n.val, hn⟩)

/-- The folded weight: `W[d, k] · s[d]` at `(k, d)`. -/
theorem V_v25_apply (c : Dev nD) (k : Fin 3) (d : Fin 64) :
    V m c main_v25 (ix2 k d) = a6 m c (ix2 d k) * scale (a8 m c (ix1 d)) (a11 m c (ix1 d)) := by
  refine (congrFun (V_v25_eq m c) (ix2 k d)).trans ?_
  -- the transpose reads `(d, k)`; the product there; the two broadcasts read the scale at `d`
  refine (transpose_ix2_apply _ transposes_S64x3_S3x64_1_0 k d).trans ?_
  refine (mulf_apply _ _ _).trans ?_
  refine congrArg (fun z => a6 m c (ix2 d k) * z) ?_
  refine (broadcastInDim_apply _ bcast_S64x1_S64x3_0_1 _ (ix2 d k) (ix2 d 0) (fun a => match a with
    | ⟨0, _⟩ => by show d.val = if (64 : Nat) = 1 then 0 else d.val; rw [if_neg (by decide)]
    | ⟨1, _⟩ => by show 0 = if (1 : Nat) = 1 then 0 else k.val; rw [if_pos rfl])).trans ?_
  refine (broadcastInDim_apply _ bcast_S64_S64x1_0 _ (ix2 d 0) (ix1 d) (fun a => match a with
    | ⟨0, _⟩ => by show d.val = if (64 : Nat) = 1 then 0 else d.val; rw [if_neg (by decide)])).trans ?_
  exact sVec_apply m c d

/-- The folded bias: `b[d] · s[d] + (β[d] − μ[d] · s[d])`. -/
theorem V_v27_apply (c : Dev nD) (d : Fin 64) :
    V m c main_v27 (ix1 d)
      = a7 m c (ix1 d) * scale (a8 m c (ix1 d)) (a11 m c (ix1 d))
        + (a9 m c (ix1 d) - a10 m c (ix1 d) * scale (a8 m c (ix1 d)) (a11 m c (ix1 d))) :=
  (congrFun (V_v27_eq m c) (ix1 d)).trans rfl

/-- The stacked grid indices (computed before the region, read after it): row `bt`'s sweep's index of point `n`. -/
theorem V_v11_apply (c : Dev nD) (bt : Fin 4) (n : Fin 100000) :
    V m c main_v11 (ix2 bt n) = rowSel bt (a2 m c) (a5 m c) (ix2 (bOf bt) n) :=
  (congrFun (V_v11_eq m c) (ix2 bt n)).trans (stackPt_apply (a2 m c) (a5 m c) bt n)

end Cert.KernelIdeal.KHost

end
-- ==== Proof.KernelTail.lean ====
/-
  The kernel program's result: the host operations after the region turn its output array into the pillar grid of the
  kernel-form embeddings.

  They cut the 2400 padding points off, scatter-add the 100000 embeddings of each batch-time row into a zero grid
  `[4, 409600, 64]` at the index vectors (row, wrapped grid index), transpose to `[4, 64, 409600]` and reshape to
  `[4, 64, 640, 640]`: cell `p = 640·x + y`.
-/
import proofs.«151703_j71313636983306_1_alg».proof.Proof.KernelBlocks
import proofs.«151703_j71313636983306_1_alg».proof.Proof.KernelHost
import proofs.«151703_j71313636983306_1_alg».proof.Proof.LibScatterBatch
import Idealize.ShloMosaic.Lib.ValueLayout
import Idealize.ShloMosaic.Lib.IdealHost
import Idealize.ShloMosaic.Lib.StableHlo.Run

set_option maxRecDepth 16384

noncomputable section

namespace Cert.KernelIdeal.KTail

open Idealize.ShloMosaic Idealize.ShloMosaic.TcCoe Idealize.ShloMosaic.ValueIdx Idealize.SL.Sem
open Cert.KernelIdeal Cert.KernelIdeal.Gen Cert.Spec Cert.LibGatherScatter Cert.LibScatterBatch
open Cert.KernelIdeal.KVal Cert.KernelIdeal.KHost
open scoped BigOperators

/-! ## The index vectors -/

section Pure
variable {α : Type}

/-- Two arrays joined along an axis, the two pieces as plain arguments. -/
def cat2 {t s₁ s₂ : Shape} (a : Fin t.rank) (h : Shape.Concatenates [s₁, s₂] t a) (x₁ : s₁.Idx → α) (x₂ : s₂.Idx → α) :
    t.Idx → α :=
  concatenate t a [⟨s₁, x₁⟩, ⟨s₂, x₂⟩] h

theorem cat2_def {t s₁ s₂ : Shape} (a : Fin t.rank) (h : Shape.Concatenates [s₁, s₂] t a) (x₁ : s₁.Idx → α)
    (x₂ : s₂.Idx → α) : concatenate t a [⟨s₁, x₁⟩, ⟨s₂, x₂⟩] h = cat2 a h x₁ x₂ := rfl

/-- Two columns `[4, 100000, 1]` joined on the last axis: component `0` is the first column. -/
theorem cat2_fst_apply (h : Shape.Concatenates [S4x100000x1, S4x100000x1] S4x100000x2 2) (A B : S4x100000x1.Idx → α)
    (bt : Fin 4) (n : Fin 100000) : cat2 2 h A B (ix3 bt n 0) = A (ix3 bt n 0) :=
  concatenate_pair_apply_left 2 A B h (ix3 bt n 0) rfl (ix3 bt n 0) (fun b => by
    match b with
    | ⟨0, _⟩ => rfl
    | ⟨1, _⟩ => rfl
    | ⟨2, _⟩ => rfl)

/-- Component `1` is the second column. -/
theorem cat2_snd_apply (h : Shape.Concatenates [S4x100000x1, S4x100000x1] S4x100000x2 2) (A B : S4x100000x1.Idx → α)
    (bt : Fin 4) (n : Fin 100000) : cat2 2 h A B (ix3 bt n 1) = B (ix3 bt n 0) :=
  concatenate_pair_apply_right 2 A B h (ix3 bt n 1) rfl rfl (ix3 bt n 0) (fun b hb => by
    match b, hb with
    | ⟨0, _⟩, _ => rfl
    | ⟨1, _⟩, _ => rfl
    | ⟨2, _⟩, hb => exact absurd rfl hb) rfl

end Pure

/-- The row words: the iota over the four rows, wrapped (never negative), laid along the points and as a column:
    at `(bt, n, 0)` the word `bt`. -/
theorem rowWord_apply (h41 : S4.BroadcastsInDim S4x1 ![0]) (h_41 : S_.BroadcastsInDim S4x1 ![])
    (h41pt : S4x1.BroadcastsInDim S4x100000 ![0, 1]) (hpt1 : S4x100000.BroadcastsInDim S4x100000x1 ![0, 1])
    (bt : Fin 4) (n : Fin 100000) (z : Fin 1) :
    broadcastInDim S4x100000x1 ![0, 1] hpt1 (broadcastInDim S4x100000 ![0, 1] h41pt
      (select (cmpi .slt (broadcastInDim S4x1 ![0] h41 (iotaInDim S4 32 0)) (broadcastInDim S4x1 ![] h_41 (constantI S_ 32 0#32)))
        (addi (broadcastInDim S4x1 ![0] h41 (iotaInDim S4 32 0)) (broadcastInDim S4x1 ![] h_41 (constantI S_ 32 4#32)))
        (broadcastInDim S4x1 ![0] h41 (iotaInDim S4 32 0)))) (ix3 bt n z)
      = BitVec.ofNat 32 bt.val := by
  refine (broadcastInDim_apply _ hpt1 _ (ix3 bt n z) (ix2 bt n) (fun a => by
    match a with
    | ⟨0, _⟩ => rfl
    | ⟨1, _⟩ => rfl)).trans ?_
  refine (broadcastInDim_apply _ h41pt _ (ix2 bt n) (ix2 bt 0) (fun a => by
    match a with
    | ⟨0, _⟩ => rfl
    | ⟨1, _⟩ => rfl)).trans ?_
  refine (wrap_apply h_41 h_41 4#32 _ (ix2 bt 0)).trans ?_
  rw [bcast_col_apply h41 (iotaInDim S4 32 0) bt 0]
  show wrapW 4#32 (BitVec.ofNat 32 bt.val) = _
  exact wrapW_of_nonneg (by rw [toInt_ofNat_small (by omega)]; omega)

/-- The cell words: the stacked grid indices with the negative ones counted from the end, as a column. -/
theorem cellWord_apply (h_pt : S_.BroadcastsInDim S4x100000 ![]) (hpt1 : S4x100000.BroadcastsInDim S4x100000x1 ![0, 1])
    (G : IVec S4x100000 32) (bt : Fin 4) (n : Fin 100000) (z : Fin 1) :
    broadcastInDim S4x100000x1 ![0, 1] hpt1
      (select (cmpi .slt G (broadcastInDim S4x100000 ![] h_pt (constantI S_ 32 0#32)))
        (addi G (broadcastInDim S4x100000 ![] h_pt (constantI S_ 32 409600#32))) G) (ix3 bt n z)
      = wrapW 409600#32 (G (ix2 bt n)) := by
  refine (broadcastInDim_apply _ hpt1 _ (ix3 bt n z) (ix2 bt n) (fun a => by
    match a with
    | ⟨0, _⟩ => rfl
    | ⟨1, _⟩ => rfl)).trans ?_
  exact wrap_apply h_pt h_pt 409600#32 G (ix2 bt n)

/-! ## The lines after the scatter's operands, read at a cell -/

/-- The scatter-add into the zero grid, transposed and reshaped, read at `(bt, d, x, y)`: the zero word plus the
    channel `d` of the rows `n` of the region's array (the padding rows cut off) whose second index word is the cell
    `640·x + y`. -/
theorem tail_read (hsl : S4x102400x64.Slices ![0, 0, 0] S4x100000x64) (hz : S_.BroadcastsInDim S4x409600x64 ![])
    (sd : ScatterDims S4x409600x64 S4x100000x2 S4x100000x64)
    (huw : sd.updateWindowDims = [2]) (hiw : sd.insertedWindowDims = [0, 1])
    (hsd : sd.scatterDimsToOperandDims = [0, 1]) (hivd : sd.indexVectorDim = 2)
    (htr : S4x409600x64.Transposes [0, 2, 1] S4x64x409600) (hsc : S4x64x409600.ShapeCasts S4x64x640x640)
    (R : S4x102400x64.Idx → EReal) (idx : IVec S4x100000x2 32)
    (hbatch : ∀ (b' : Fin 4) (n : Fin 100000), (idx (ix3 b' n 0)).toInt = (b'.val : ℤ))
    (bt : Fin 4) (d : Fin 64) (x y : Fin 640) :
    shapeCast S4x64x640x640 (transpose S4x64x409600 [0, 2, 1]
        (Host.scatterAdd (F := Ideal) sd
          (broadcastInDim S4x409600x64 ![] hz (constant (F := Ideal) S_ .f32 0x00000000#32)) idx
          (extractStridedSlice S4x100000x64 ![0, 0, 0] R hsl)) htr) hsc (ix4 bt d x y)
      = zeroW + ∑ n ∈ Finset.univ.filter (fun n : Fin 100000 => (idx (ix3 bt n 1)).toInt = ((640 * x.val + y.val : ℕ) : ℤ)),
          R (ix3 bt ⟨n.val, by omega⟩ d) := by
  have hp : 640 * x.val + y.val < 409600 := by omega
  refine (shapeCast_apply _ hsc (ix4 bt d x y) (ix3 bt d ⟨640 * x.val + y.val, hp⟩) ?_).trans ?_
  · rw [Shape.rowMajor_val_three, Shape.rowMajor_val_four]
    show (bt.val * 64 + d.val) * 409600 + (640 * x.val + y.val) = ((bt.val * 64 + d.val) * 640 + x.val) * 640 + y.val
    ring
  refine (transpose_ix3_021_apply _ htr bt d ⟨640 * x.val + y.val, hp⟩).trans ?_
  refine (scatterAdd3_apply sd huw hiw hsd hivd _ idx _ hbatch bt ⟨640 * x.val + y.val, hp⟩ d).trans ?_
  refine congrArg₂ (· + ·) ?_ (Finset.sum_congr rfl fun n _ => ?_)
  · rfl
  · exact slice3_axis1_apply 0 R hsl bt n d ⟨n.val, by omega⟩ (by simp)

/-! ## The region's entry at a point as the kernel-form embedding -/

/-- The region's entry `(bt, n, d)` is the kernel-form embedding's channel once the four arrays it reads are, at the
    entries it uses, the point's coordinates, the folded weights, the folded bias and the mask's number. -/
theorem embPad_eq_embK (xp : S4x3x102400.Idx → EReal) (mp : S4x102400.Idx → EReal) (wt : S3x64.Idx → EReal)
    (bp : S64.Idx → EReal) (bt : Fin 4) (n : Fin 102400) (d : Fin 64) (x w : Fin 3 → EReal) (b g be mu v : EReal)
    (mk : BitVec 1) (hx : ∀ k, xp (ix3 bt k n) = x k) (hw : ∀ k, wt (ix2 k d) = w k * scale g v)
    (hb : bp (ix1 d) = b * scale g v + (be - mu * scale g v)) (hm : mp (ix2 bt n) = ((mk.toNat : ℝ) : EReal)) :
    embPad xp mp wt bp (ix3 bt n d) = embK x w b g be mu v mk := by
  have hs : (∑ k : Fin 3, xp (ix3 bt k n) * wt (ix2 k d)) = ∑ k : Fin 3, x k * (w k * scale g v) :=
    Finset.sum_congr rfl fun k _ => by rw [hx k, hw k]
  show max ((∑ k : Fin 3, xp (ix3 bt k n) * wt (ix2 k d)) + bp (ix1 d)) zeroW * mp (ix2 bt n) = _
  rw [hs, hb, hm]
  rfl

/-! ## The result buffer -/

variable (m : (ℓ : Loc nD τ sig) → Buf (Elt Ideal) ℓ) (ρ : Dev nD → PrngReg)

/-- The result buffer after the lines that follow the region: the pillar grid of the kernel-form embeddings. -/
theorem tail_eq (c : Dev nD) :
    Pipeline.afterTail₀ cfgs (dats (F := Ideal) m) 0 (V0 m) [hostOps1] c main_v49
      = resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  unfold Pipeline.afterTail₀
  show StableHlo.after (hostOps1 (F := Ideal)) _ (Proc.devRef .tc main_v49) = _
  -- each line's result at its own buffer is its function of its operands' contents; the joined index columns as plain arguments
  simp (disch := decide) only [StableHlo.after_cons, StableHlo.after_nil,
    StableHlo.nullary_result', StableHlo.unary_result', StableHlo.binary_result', StableHlo.ternary_result',
    StableHlo.reshape_result', StableHlo.nullary_result_ne', StableHlo.unary_result_ne', StableHlo.binary_result_ne',
    StableHlo.ternary_result_ne', StableHlo.reshape_result_ne', cat2_def]
  -- the stacked grid indices are no array of the region: as the region found them; the region's array: its final contents
  have hG : Pipeline.withArrays (cfgs 0).spec c (V0 m c) (fun w => (dats m 0 c).arrAt w (cfgs 0).N) (Proc.devRef .tc main_v11)
      = V m c main_v11 :=
    Pipeline.withArrays_of_ne _ c (V0 m c) _ main_v11 (by exact (by decide : ∀ w, Pipeline.arrRef spec0 w ≠ main_v11))
  have hR : Pipeline.withArrays (cfgs 0).spec c (V0 m c) (fun w => (dats m 0 c).arrAt w (cfgs 0).N) (Proc.devRef .tc main_v28)
      = embPad (V m c main_v13) (V m c main_v15) (V m c main_v25) (V m c main_v27) :=
    (Pipeline.withArrays_arr spec0 launch0.win.arr_inj c _ _ 4).trans (final4 m c)
  rw [hG, hR]
  refine funext fun (i : S4x64x640x640.Idx) => ?_
  obtain ⟨bt, d, x, y, rfl⟩ : ∃ (bt : Fin 4) (d : Fin 64) (x y : Fin 640), i = ix4 bt d x y :=
    ⟨i 0, i 1, i 2, i 3, eq_ix4 i⟩
  -- the cell (bt, d, x, y) of the result: the scatter's sum at cell 640·x + y
  refine (tail_read _ _ _ rfl rfl rfl rfl _ _ _ _
    (fun b' n' => (congrArg BitVec.toInt ((cat2_fst_apply _ _ _ b' n').trans (rowWord_apply _ _ _ _ b' n' 0))).trans
      (toInt_ofNat_small (by have := b'.isLt; omega))) bt d x y).trans ?_
  show _ = zeroW + ∑ n ∈ Finset.univ.filter (fun n : Fin 100000 =>
      (wrapW 409600#32 (rowSel bt (a2 m c) (a5 m c) (ix2 (bOf bt) n))).toInt = ((640 * x.val + y.val : ℕ) : ℤ)),
    embK (fun k => rowSel bt (a0 m c) (a3 m c) (ix3 (bOf bt) n k)) (fun k => a6 m c (ix2 d k)) (a7 m c (ix1 d)) (a8 m c (ix1 d))
      (a9 m c (ix1 d)) (a10 m c (ix1 d)) (a11 m c (ix1 d)) (rowSel bt (a1 m c) (a4 m c) (ix2 (bOf bt) n))
  refine congrArg (zeroW + ·) (Finset.sum_congr (Finset.filter_congr fun n _ => ?_) fun n _ => ?_)
  · -- the same points: the second index word is the wrapped grid index of the row's sweep
    exact Iff.of_eq (congrArg (fun w : BitVec 32 => w.toInt = ((640 * x.val + y.val : ℕ) : ℤ))
      ((cat2_snd_apply _ _ _ bt n).trans ((cellWord_apply _ _ (V m c main_v11) bt n 0).trans
        (congrArg (wrapW 409600#32) (V_v11_apply m c bt n)))))
  · -- the same embedding: the region's entry at a real point, from the arguments
    have hn : n.val < 100000 := n.isLt
    exact embPad_eq_embK _ _ _ _ bt ⟨n.val, by omega⟩ d _ _ _ _ _ _ _ _
      (fun k => V_v13_apply m c bt k ⟨n.val, by omega⟩ hn) (fun k => V_v25_apply m c k d) (V_v27_apply m c d)
      (V_v15_apply m c bt ⟨n.val, by omega⟩ hn)

/-- The frame run re-posted: the result buffer at `resultK` of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v49)
        = resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v49 (Pipeline.mem_restRefs_of main_v49 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.KTail

end
-- ==== Proof.lean ====
/-
  The kernel and its reference compute one pillar grid.

  Both take two sweeps of 100000 points per batch, embed every point by a linear layer 3 → 64 followed by an
  evaluation-mode normalisation, a ReLU and the point's mask, and add each embedding into the cell of a 640 × 640 grid
  that the point's grid index names. The reference normalises after the linear layer; the kernel folds the
  normalisation into the layer's weight and bias on the host, runs the masked layer in 25 blocks of 4096 points, and
  scatters the four batch-time rows at once. Index by index both results are the same sum over the points of a cell
  (`Cert.Spec.resultOf`), of embeddings that agree once the normalisation's scale is a finite number — which the
  precondition gives: every float input finite and every variance non-negative.
-/
import proofs.«151703_j71313636983306_1_alg».proof.Defs
import proofs.«151703_j71313636983306_1_alg».proof.Proof.Gen.Kernel
import proofs.«151703_j71313636983306_1_alg».proof.Proof.Gen.Kernel.Skeleton
import proofs.«151703_j71313636983306_1_alg».proof.Proof.Gen.Kernel.Launch
import proofs.«151703_j71313636983306_1_alg».proof.Proof.Gen.Kernel.Points
import proofs.«151703_j71313636983306_1_alg».proof.Proof.Gen.Kernel.Frame
import proofs.«151703_j71313636983306_1_alg».proof.Proof.Gen.KernelIdeal
import proofs.«151703_j71313636983306_1_alg».proof.Proof.Gen.KernelIdeal.Skeleton
import proofs.«151703_j71313636983306_1_alg».proof.Proof.Gen.KernelIdeal.Launch
import proofs.«151703_j71313636983306_1_alg».proof.Proof.Gen.KernelIdeal.Points
import proofs.«151703_j71313636983306_1_alg».proof.Proof.Gen.KernelIdeal.Frame
import proofs.«151703_j71313636983306_1_alg».proof.Proof.Gen.ReferenceIdeal
import proofs.«151703_j71313636983306_1_alg».proof.Proof.Gen.ReferenceIdeal.Run
import proofs.«151703_j71313636983306_1_alg».proof.Proof.Gen.ReferenceIdeal.Read
import proofs.«151703_j71313636983306_1_alg».proof.Proof.Gen.Pre_finite_inputs
import proofs.«151703_j71313636983306_1_alg».proof.Proof.EmbedLaw
import proofs.«151703_j71313636983306_1_alg».proof.Proof.PreFacts
import proofs.«151703_j71313636983306_1_alg».proof.Proof.RefValue
import proofs.«151703_j71313636983306_1_alg».proof.Proof.KernelTail
import Idealize.ShloMosaic.Adequacy
import Idealize.ShloMosaic.Init

noncomputable section

namespace Cert.Proof

open Idealize.ShloMosaic Idealize.SL.Sem

/-- The kernel as printed runs and leaves its arguments alone. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is host operations only: its run, the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end at the pillar grid: the kernel at the folded form's, the
    reference at the plain form's, and the two forms agree under the precondition. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.KTail.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v87_eq, Cert.ReferenceIdeal.RefValue.ref_eq, a0, a1, a2, a3, a4, a5, a6, a7, a8,
    a9, a10, a11]
  obtain ⟨h0, h3, hW, hb, hg, hbe, hmu, hv, hv0⟩ := Cert.PreFacts.of_pre _ _ _ _ _ _ _ _ _ _ _ _ (hpre c)
  exact (Cert.Spec.resultK_eq_resultR _ _ _ _ _ _ _ _ _ _ _ _ h0 h3 hW hb hg hbe hmu hv hv0).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
